-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 56
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_7 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call1_cst : Ref sig .tc := ⟨.hbm, 88, rfl⟩
abbrev main_call1_v0 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics shared by the two programs, over the extended reals, with no program in sight.

  A node's pre-normalisation row is  lin r j = ((sum_k agg r k * wl k j) + b j) + sum_k h r k * wr k j.
  Batch normalisation needs, per column j, the mean and the variance of  f r j  over all 50000 rows r.
  One program accumulates the column sum and the column sum of squares block by block (25 blocks of 2000
  rows, in block order, from zero) and takes the variance as  E[f^2] - (E f)^2 ; the other sums all rows at
  once and takes the variance as  E[(f - E f)^2] . Over the extended reals the two agree as soon as every
  f r j is a real number: sums of reals regroup freely, and the two variance formulas are the same polynomial
  identity in the reals.
-/
import Idealize.ShloMosaic.PureOps.Ideal
import Idealize.ShloMosaic.PureOps.Ideal.Laws
import Idealize.ShloMosaic.Lib.ValueIdx

noncomputable section

namespace Cert.Sage

open Idealize.ShloMosaic

/-- The float literals both programs use, kept as their binary words. -/
def zf : EReal := Ideal.ofBits .f32 0x00000000#32
def nf : EReal := Ideal.ofBits .f32 0x47435000#32
def ef : EReal := Ideal.ofBits .f32 0x3727C5AC#32
def nanf : EReal := Ideal.ofBits .f32 0x7FC00000#32
/-- The integer zero converted to a float (the variance's degrees-of-freedom correction, which is 0). -/
def s0 : EReal := FloatOps.sitofp (F := Ideal) .f32 (0#32 : BitVec 32)

/-- Row `i` of block `t` (blocks of 2000 rows). -/
def rowOf (t : Fin 25) (i : Fin 2000) : Fin 50000 :=
  ⟨2000 * t.val + i.val, by have := t.isLt; have := i.isLt; omega⟩

/-- The sum of a column over one block of rows. -/
def blockSum (u : Fin 50000 → EReal) (t : Fin 25) : EReal := ∑ i : Fin 2000, u (rowOf t i)

/-- The running column sum after block `n`: from zero, block by block, in block order. -/
def acc (u : Fin 50000 → EReal) : (n : ℕ) → n < 25 → EReal
  | 0, hn => zf + blockSum u ⟨0, hn⟩
  | n + 1, hn => acc u n (Nat.lt_of_succ_lt hn) + blockSum u ⟨n + 1, hn⟩

/-- The blockwise column sum (after the last block). -/
def sumK (u : Fin 50000 → EReal) : EReal := acc u 24 (by decide)

/-- The one-shot column sum, from zero. -/
def sumR (u : Fin 50000 → EReal) : EReal := zf + ∑ r : Fin 50000, u r

/-! ### The literals as extended reals -/

theorem zf_eq : zf = 0 := Ideal.ofBits_zero_f32

theorem nf_eq : nf = ((50000 : ℝ) : EReal) := by
  simp [nf, Ideal.ofBits, Ideal.ieee, -EReal.coe_mul]; norm_num

theorem s0_eq : s0 = 0 := by
  show (((0#32 : BitVec 32).toInt : ℝ) : EReal) = 0
  simp

/-- The guard `50000 - 0 > 0` holds. -/
theorem guard_eq : Ideal.cmp .ogt (nf - s0) zf = 1#1 := by
  rw [nf_eq, s0_eq, zf_eq, sub_zero]
  have h : (0 : EReal) < ((50000 : ℝ) : EReal) := by exact_mod_cast (by norm_num : (0 : ℝ) < 50000)
  simp [Ideal.cmp, h]

/-- Division by the row count is multiplication by its real reciprocal. -/
theorem div_nf (a : EReal) : Ideal.div a nf = a * ((1 / 50000 : ℝ) : EReal) := by
  rw [nf_eq]; exact Ideal.div_coe (by norm_num) a

/-! ### Regrouping the column sum -/

/-- A finite sum of real numbers, read in the extended reals, is the real sum. -/
theorem coe_sum {ι : Type} (s : Finset ι) (x : ι → ℝ) :
    (∑ i ∈ s, (x i : EReal)) = ((∑ i ∈ s, x i : ℝ) : EReal) := by
  classical
  induction s using Finset.induction_on with
  | empty => simp
  | insert a s ha ih => rw [Finset.sum_insert ha, Finset.sum_insert ha, ih, EReal.coe_add]

/-- The block sums, indexed by a natural number (zero past the last block). -/
def blockSumN (u : Fin 50000 → EReal) (t : ℕ) : EReal := if h : t < 25 then blockSum u ⟨t, h⟩ else 0

/-- The running sum after block `n` is zero plus the block sums up to `n`: addition of extended reals is associative. -/
theorem acc_eq (u : Fin 50000 → EReal) : ∀ (n : ℕ) (hn : n < 25),
    acc u n hn = zf + ∑ t ∈ Finset.range (n + 1), blockSumN u t
  | 0, hn => by
      rw [acc, Finset.sum_range_one, blockSumN, dif_pos hn]
  | n + 1, hn => by
      rw [acc, acc_eq u n (Nat.lt_of_succ_lt hn), Finset.sum_range_succ _ (n + 1), add_assoc]
      congr 2
      rw [blockSumN, dif_pos hn]

/-- Every row lies in exactly one block: rows are pairs (block, row in block). -/
theorem sum_blocks (u : Fin 50000 → EReal) : ∑ t : Fin 25, blockSum u t = ∑ r : Fin 50000, u r := by
  unfold blockSum
  rw [← Fintype.sum_prod_type' (fun (t : Fin 25) (i : Fin 2000) => u (rowOf t i))]
  refine Fintype.sum_equiv ((finProdFinEquiv (m := 25) (n := 2000)).trans (finCongr (by norm_num))) _ _ ?_
  rintro ⟨t, i⟩
  refine congrArg u (Fin.ext ?_)
  simp [rowOf, finProdFinEquiv, Nat.add_comm]

/-- The blockwise column sum is the one-shot column sum, for any column. -/
theorem sumK_eq_sumR (u : Fin 50000 → EReal) : sumK u = sumR u := by
  unfold sumK sumR
  rw [acc_eq, ← sum_blocks, ← Fin.sum_univ_eq_sum_range (blockSumN u) 25]
  refine congrArg (zf + ·) (Finset.sum_congr rfl fun t _ => ?_)
  rw [blockSumN, dif_pos t.isLt]

/-- The one-shot sum of a real column is the real sum. -/
theorem sumR_coe (y : Fin 50000 → ℝ) : sumR (fun r => (y r : EReal)) = ((∑ r, y r : ℝ) : EReal) := by
  unfold sumR; rw [zf_eq, zero_add, coe_sum]

/-- The two variance formulas agree over the reals: `E[x^2] - (E x)^2 = E[(x - E x)^2]`. -/
theorem real_var (x : Fin 50000 → ℝ) :
    (∑ r, x r * x r) * (1 / 50000) - (∑ r, x r) * (1 / 50000) * ((∑ r, x r) * (1 / 50000))
      = (∑ r, (x r - (∑ r, x r) * (1 / 50000)) * (x r - (∑ r, x r) * (1 / 50000))) * (1 / 50000) := by
  generalize hS : ∑ r, x r = S
  generalize hμ : S * (1 / 50000) = μ
  have hsq : ∑ r, (x r - μ) * (x r - μ) = (∑ r, x r * x r) - 2 * μ * S + 50000 * (μ * μ) := by
    have h1 : ∀ r, (x r - μ) * (x r - μ) = x r * x r - 2 * μ * x r + μ * μ := fun r => by ring
    simp only [h1, Finset.sum_add_distrib, Finset.sum_sub_distrib, ← Finset.mul_sum, Finset.sum_const,
      Finset.card_univ, Fintype.card_fin, nsmul_eq_mul, hS]
    push_cast; ring
  rw [hsq, ← hμ]; ring

section Norm

variable (f h : Fin 50000 → Fin 128 → EReal) (g be : Fin 128 → EReal)

def meanK (j : Fin 128) : EReal := Ideal.div (sumK fun r => f r j) nf

def istdK (j : Fin 128) : EReal :=
  Ideal.rsqrt ((Ideal.div (sumK fun r => f r j * f r j) nf - meanK f j * meanK f j) + ef)

/-- Normalise with the blockwise statistics, scale, shift, clamp at zero, add the residual. -/
def outK (r : Fin 50000) (j : Fin 128) : EReal :=
  max (((g j * (f r j - meanK f j)) * istdK f j) + be j) zf + h r j

def meanR (j : Fin 128) : EReal := Ideal.div (sumR fun r => f r j) nf

/-- The centred variance, divided by `50000 - 0`, guarded by the test `50000 - 0 > 0`. -/
def varR (j : Fin 128) : EReal :=
  Scalar.select (Ideal.cmp .ogt (nf - s0) zf)
    (Ideal.div (sumR fun r => (f r j - meanR f j) * (f r j - meanR f j)) (nf - s0)) nanf

def outR (r : Fin 50000) (j : Fin 128) : EReal :=
  max (((g j * (f r j - meanR f j)) * Ideal.rsqrt (varR f j + ef)) + be j) zf + h r j

theorem meanK_eq_meanR (j : Fin 128) : meanK f j = meanR f j := by
  unfold meanK meanR; rw [sumK_eq_sumR]

/-- With the guard decided, the centred variance is the centred sum of squares over the row count. -/
theorem varR_eq (j : Fin 128) :
    varR f j = Ideal.div (sumR fun r => (f r j - meanR f j) * (f r j - meanR f j)) nf := by
  unfold varR
  rw [guard_eq, ValueIdx.select_one, s0_eq, sub_zero]

/-- On a real column the two variances are equal. -/
theorem var_eq (hf : ∀ r j, ∃ x : ℝ, f r j = (x : EReal)) (j : Fin 128) :
    Ideal.div (sumK fun r => f r j * f r j) nf - meanK f j * meanK f j = varR f j := by
  choose x hx using hf
  have hm : meanR f j = (((∑ r, x r j) * (1 / 50000) : ℝ) : EReal) := by
    unfold meanR
    rw [div_nf, show (fun r => f r j) = fun r => ((x r j : ℝ) : EReal) from funext fun r => hx r j, sumR_coe,
      ← EReal.coe_mul]
  rw [varR_eq, meanK_eq_meanR, sumK_eq_sumR, hm, div_nf, div_nf]
  rw [show (fun r => f r j * f r j) = fun r => ((x r j * x r j : ℝ) : EReal) from
        funext fun r => by rw [hx r j, ← EReal.coe_mul],
      show (fun r => (f r j - (((∑ r, x r j) * (1 / 50000) : ℝ) : EReal)) * (f r j - (((∑ r, x r j) * (1 / 50000) : ℝ) : EReal)))
          = fun r => (((x r j - (∑ r, x r j) * (1 / 50000)) * (x r j - (∑ r, x r j) * (1 / 50000)) : ℝ) : EReal) from
        funext fun r => by rw [hx r j, ← EReal.coe_sub, ← EReal.coe_mul],
      sumR_coe, sumR_coe, ← EReal.coe_mul, ← EReal.coe_mul, ← EReal.coe_mul, ← EReal.coe_sub, real_var]

/-- The two normalisations agree when every pre-normalisation entry is a real number. -/
theorem outK_eq_outR (hf : ∀ r j, ∃ x : ℝ, f r j = (x : EReal)) (r : Fin 50000) (j : Fin 128) :
    outK f h g be r j = outR f h g be r j := by
  unfold outK outR istdK
  rw [var_eq f hf j, meanK_eq_meanR]

end Norm

/-- The pre-normalisation row: neighbour mean times one weight matrix, plus bias, plus the node's own row times the other. -/
def lin (agg h : Fin 50000 → Fin 128 → EReal) (wl wr : Fin 128 → Fin 128 → EReal) (b : Fin 128 → EReal)
    (r : Fin 50000) (j : Fin 128) : EReal :=
  ((∑ k : Fin 128, agg r k * wl k j) + b j) + ∑ k : Fin 128, h r k * wr k j

/-- It is a real number when all its ingredients are. -/
theorem lin_finite (agg h : Fin 50000 → Fin 128 → EReal) (wl wr : Fin 128 → Fin 128 → EReal) (b : Fin 128 → EReal)
    (hagg : ∀ r k, ∃ x : ℝ, agg r k = (x : EReal)) (hh : ∀ r k, ∃ x : ℝ, h r k = (x : EReal))
    (hwl : ∀ k j, ∃ x : ℝ, wl k j = (x : EReal)) (hwr : ∀ k j, ∃ x : ℝ, wr k j = (x : EReal))
    (hb : ∀ j, ∃ x : ℝ, b j = (x : EReal)) (r : Fin 50000) (j : Fin 128) :
    ∃ x : ℝ, lin agg h wl wr b r j = (x : EReal) := by
  choose a ha using hagg
  choose y hy using hh
  choose p hp using hwl
  choose q hq using hwr
  choose c hc using hb
  refine ⟨((∑ k, a r k * p k j) + c j) + ∑ k, y r k * q k j, ?_⟩
  unfold lin
  simp only [ha, hy, hp, hq, hc, ← EReal.coe_mul, coe_sum, ← EReal.coe_add]

end Cert.Sage

end
-- ==== Proof.KDefs.lean ====
/-
  The kernel program's arrays, as a launch finds them, read as functions of a row and a column; and the
  pre-normalisation row they determine.
-/
import proofs.«143099_j87393994539131_1_alg».proof.Proof.Gen.KernelIdeal.Frame
import proofs.«143099_j87393994539131_1_alg».proof.Proof.Spec

noncomputable section

namespace Cert.KernelIdeal.Val

open Cert.KernelIdeal Cert.KernelIdeal.Gen
open Idealize.ShloMosaic Idealize.ShloMosaic.TcCoe Idealize.ShloMosaic.ValueIdx Idealize.SL.Sem

-- the buffer contents a launch is entered from (at the extended reals)
variable (V : (c : Dev nD) → (b : Ref sig .tc) → Buf (Elt Ideal) ((c : Thread nD τ).loc b))

/-- The neighbour means. -/
def aggV (c : Dev nD) : Fin 50000 → Fin 128 → EReal := fun r k => (V c main_v22 : S50000x128.Idx → EReal) (ix2 r k)
/-- The node rows. -/
def hV (c : Dev nD) : Fin 50000 → Fin 128 → EReal := fun r k => (V c main_arg0 : S50000x128.Idx → EReal) (ix2 r k)
/-- The two transposed weight matrices. -/
def wlV (c : Dev nD) : Fin 128 → Fin 128 → EReal := fun k j => (V c main_v23 : S128x128.Idx → EReal) (ix2 k j)
def wrV (c : Dev nD) : Fin 128 → Fin 128 → EReal := fun k j => (V c main_v24 : S128x128.Idx → EReal) (ix2 k j)
/-- The bias, the scale and the shift, each staged as a one-row matrix. -/
def bV (c : Dev nD) : Fin 128 → EReal := fun j => (V c main_v25 : S1x128.Idx → EReal) (ix2 (0 : Fin 1) j)
def gV (c : Dev nD) : Fin 128 → EReal := fun j => (V c main_v26 : S1x128.Idx → EReal) (ix2 (0 : Fin 1) j)
def beV (c : Dev nD) : Fin 128 → EReal := fun j => (V c main_v27 : S1x128.Idx → EReal) (ix2 (0 : Fin 1) j)
/-- The column means and inverse standard deviations the second launch is handed. -/
def muV (c : Dev nD) : Fin 128 → EReal := fun j => (V c main_v30 : S1x128.Idx → EReal) (ix2 (0 : Fin 1) j)
def isV (c : Dev nD) : Fin 128 → EReal := fun j => (V c main_v37 : S1x128.Idx → EReal) (ix2 (0 : Fin 1) j)

/-- The pre-normalisation rows of those arrays. -/
def linV (c : Dev nD) : Fin 50000 → Fin 128 → EReal :=
  Cert.Sage.lin (aggV V c) (hV V c) (wlV V c) (wrV V c) (bV V c)

end Cert.KernelIdeal.Val

end
-- ==== Proof.KTerm.lean ====
/-
  The host operations the kernel's program applies before its first launch, as terms of the argument arrays:
  the mean of the incoming messages per node, and a weight matrix transposed. Generic in the float instance.
  (The reference's program applies the same operations to the same arguments.)
-/
import proofs.«143099_j87393994539131_1_alg».proof.Proof.Gen.KernelIdeal

noncomputable section

namespace Cert.KernelIdeal.HostVal

open Cert.KernelIdeal Cert.KernelIdeal.Gen Idealize.ShloMosaic Idealize.ShloMosaic.TcCoe

variable {F : FTy → Type} [FloatOps F]

/-- The edges' source node ids (row 0 of the edge list). -/
abbrev srcIdx (a1 : IVec S2x800000 32) : IVec S800000 32 :=
  shapeCast S800000 (extractStridedSlice S1x800000 ![0, 0] a1 slices_S2x800000_S1x800000_0_0) shapeCasts_S1x800000_S800000

/-- The edges' target node ids (row 1 of the edge list). -/
abbrev dstIdx (a1 : IVec S2x800000 32) : IVec S800000 32 :=
  shapeCast S800000 (extractStridedSlice S1x800000 ![1, 0] a1 slices_S2x800000_S1x800000_1_0) shapeCasts_S1x800000_S800000

/-- A negative source id counts from the end. -/
abbrev srcNorm (a1 : IVec S2x800000 32) : IVec S800000 32 :=
  select (cmpi .slt (srcIdx a1) (broadcastInDim S800000 ![] bcast_S_S800000 (constantI S_ 32 0#32)))
    (addi (srcIdx a1) (broadcastInDim S800000 ![] bcast_S_S800000 (constantI S_ 32 50000#32))) (srcIdx a1)

/-- One message per edge: the source node's row. -/
abbrev msgs (a0 : FVec F S50000x128 .f32) (a1 : IVec S2x800000 32) : FVec F S800000x128 .f32 :=
  Host.gather gather_S50000x128_S800000x1_S800000x128_1_0_n_n_0_1_1128 a0
    (broadcastInDim S800000x1 ![0] bcast_S800000_S800000x1_0 (srcNorm a1))

/-- The messages summed per target node. -/
abbrev msgSum (a0 : FVec F S50000x128 .f32) (a1 : IVec S2x800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 (dstIdx a1)) (msgs a0 a1)

/-- The number of incoming edges per node. -/
abbrev deg (a1 : IVec S2x800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 (dstIdx a1))
    (broadcastInDim S800000 ![] bcast_S_S800000 (constant (F := F) S_ .f32 0x3F800000#32))

/-- The mean of the incoming messages (the sum over a count clamped below by one). -/
abbrev agg (a0 : FVec F S50000x128 .f32) (a1 : IVec S2x800000 32) : FVec F S50000x128 .f32 :=
  Host.divf (msgSum a0 a1)
    (broadcastInDim S50000x128 ![0, 1] bcast_S50000x1_S50000x128_0_1
      (broadcastInDim S50000x1 ![0] bcast_S50000_S50000x1_0
        (maximumf (deg (F := F) a1) (broadcastInDim S50000 ![] bcast_S_S50000 (constant (F := F) S_ .f32 0x3F800000#32)))))

/-- A weight matrix transposed. -/
abbrev wT (a : FVec F S128x128 .f32) : FVec F S128x128 .f32 :=
  transpose S128x128 [1, 0] a transposes_S128x128_S128x128_1_0

end Cert.KernelIdeal.HostVal

end
-- ==== Proof.KStats.lean ====
/-
  The first launch: what its two one-row outputs hold after the last grid point. Each of the 25 points adds, to
  the running row, the column sums (respectively the column sums of squares) of the pre-normalisation rows of its
  block of 2000 nodes; the first point starts from zero. So after the last point the rows hold the blockwise
  column sums of the specification.
-/
import proofs.«143099_j87393994539131_1_alg».proof.Proof.KDefs
import Idealize.ShloMosaic.Lib.Pipeline.Value
import Idealize.ShloMosaic.Lib.ValueLayout
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

namespace Stats
/-! ## What one point leaves in the two rows, as the point's arithmetic -/

section Pieces
variable {F : FTy → Type} [FloatOps F]

theorem hz : (![0, 0] : Fin 2 → Nat) = fun _ => 0 := funext fun a => by fin_cases a <;> rfl

/-- A later point adds the block's column sums to what the first row held. -/
theorem out_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 : Vec F S2000x128 .f32) (x1 : Vec F S2000x128 .f32) (x2 : Vec F S128x128 .f32) (x3 : Vec F S128x128 .f32) (x4 : Vec F S1x128 .f32) (xo5 xo6 : Vec F S1x128 .f32) :
    out0_B_5 c i arg1 harg1 arg2 harg2 arg3 harg3 arg4 harg4 arg5 harg5 arg6 harg6 arg7 harg7 hc0 x0 x1 x2 x3 x4 xo5 xo6 = k0_pay4 x0 x1 x2 x3 x4 xo5 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo5 xo6)]
  unfold kernelRun0_B
  dsimp only
  rw [View.canon_unit_zero hz]
  simp only [View.readAt_eq_ld, harg1.read_unread, harg2.read_unread, harg3.read_unread, harg4.read_unread,
    harg5.read_unread, harg6.read_unread, View.ld_unit_zero (S := S2000x128) hz, View.ld_unit_zero (S := S128x128) hz,
    View.ld_unit_zero (S := S1x128) hz]

/-- and the block's column sums of squares to what the second row held. -/
theorem out_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 : Vec F S2000x128 .f32) (x1 : Vec F S2000x128 .f32) (x2 : Vec F S128x128 .f32) (x3 : Vec F S128x128 .f32) (x4 : Vec F S1x128 .f32) (xo5 xo6 : Vec F S1x128 .f32) :
    out0_B_6 c i arg1 harg1 arg2 harg2 arg3 harg3 arg4 harg4 arg5 harg5 arg6 harg6 arg7 harg7 hc0 x0 x1 x2 x3 x4 xo5 xo6 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo5 xo6)]
  unfold kernelRun0_B
  dsimp only
  sl_unfold_words
  rw [View.canon_unit_zero hz]
  simp only [View.readAt_eq_ld, harg1.read_unread, harg2.read_unread, harg3.read_unread, harg4.read_unread,
    harg5.read_unread, harg7.read_unread, View.ld_unit_zero (S := S2000x128) hz, View.ld_unit_zero (S := S128x128) hz,
    View.ld_unit_zero (S := S1x128) hz]

/-- The first point starts the first row from the zero row. -/
theorem out_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 : Vec F S2000x128 .f32) (x1 : Vec F S2000x128 .f32) (x2 : Vec F S128x128 .f32) (x3 : Vec F S128x128 .f32) (x4 : Vec F S1x128 .f32) :
    out0_A_5 c i arg1 harg1 arg2 harg2 arg3 harg3 arg4 harg4 arg5 harg5 arg6 harg6 arg7 harg7 hc0 x0 x1 x2 x3 x4 = k0_pay4 x0 x1 x2 x3 x4 (k0_pay1 (F := F)) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    harg5.read_unread, View.ld_unit_zero (S := S2000x128) hz, View.ld_unit_zero (S := S128x128) hz,
    View.ld_unit_zero (S := S1x128) hz]

/-- and the second row from the zero row. -/
theorem out_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 : Vec F S2000x128 .f32) (x1 : Vec F S2000x128 .f32) (x2 : Vec F S128x128 .f32) (x3 : Vec F S128x128 .f32) (x4 : Vec F S1x128 .f32) :
    out0_A_6 c i arg1 harg1 arg2 harg2 arg3 harg3 arg4 harg4 arg5 harg5 arg6 harg6 arg7 harg7 hc0 x0 x1 x2 x3 x4 = k0_pay5 x0 x1 x2 x3 x4 (k0_pay2 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    harg5.read_unread, View.ld_unit_zero (S := S2000x128) hz, View.ld_unit_zero (S := S128x128) hz,
    View.ld_unit_zero (S := S1x128) hz]

end Pieces

/-! ## That arithmetic at an entry, over the extended reals -/

section Payloads

/-- The contraction's left index keeps the output row, -/
theorem lhs_axis0 (j : S2000x128.Idx) (k : dot_S2000x128_S128x128_S2000x128_1_0_0_1_n_n.contr.Idx) :
    (dot_S2000x128_S128x128_S2000x128_1_0_0_1_n_n.lhsIdx j k 0).val = (j 0).val := by
  simp [DotDims.lhsIdx, dot_S2000x128_S128x128_S2000x128_1_0_0_1_n_n]; rfl
/-- and reads the contraction position on its column axis. -/
theorem lhs_axis1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  DotDims.lhsIdx_val_of_single (d := dot_S2000x128_S128x128_S2000x128_1_0_0_1_n_n) (cl := 1) rfl j k
/-- The right index reads the contraction position on its row axis, -/
theorem rhs_axis0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  DotDims.rhsIdx_val_of_single (d := dot_S2000x128_S128x128_S2000x128_1_0_0_1_n_n) (cr := 0) rfl j k
/-- and keeps the output column. -/
theorem rhs_axis1 (j : S2000x128.Idx) (k : dot_S2000x128_S128x128_S2000x128_1_0_0_1_n_n.contr.Idx) :
    (dot_S2000x128_S128x128_S2000x128_1_0_0_1_n_n.rhsIdx j k 1).val = (j 1).val := by
  simp [DotDims.rhsIdx, dot_S2000x128_S128x128_S2000x128_1_0_0_1_n_n]; rfl

/-- A product of a block of rows with a square matrix, into zero, at an entry: the sum over the shared coordinate. -/
theorem matmul_apply (A : FVec Ideal S2000x128 .bf16) (B : FVec Ideal S128x128 .bf16) (i : Fin 2000) (j : Fin 128) :
    matmul dot_S2000x128_S128x128_S2000x128_1_0_0_1_n_n none A B (constant (F := Ideal) S2000x128 .f32 0x00000000#32) (ix2 i j)
      = ∑ k : Fin 128, A (ix2 i k) * B (ix2 k j) := by
  show FloatOps.matmul dot_S2000x128_S128x128_S2000x128_1_0_0_1_n_n none A B _ (ix2 i j) = _
  rw [Ideal.matmul_constant_zero_apply, ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have l : dot_S2000x128_S128x128_S2000x128_1_0_0_1_n_n.lhsIdx (ix2 i j) ((contrEquiv1 dot_S2000x128_S128x128_S2000x128_1_0_0_1_n_n 128 rfl rfl).symm k) = ix2 i k := by
    funext ax; apply Fin.ext
    match ax with
    | ⟨0, _⟩ => exact lhs_axis0 _ _
    | ⟨1, _⟩ => exact (lhs_axis1 _ _).trans ck
  have r : dot_S2000x128_S128x128_S2000x128_1_0_0_1_n_n.rhsIdx (ix2 i j) ((contrEquiv1 dot_S2000x128_S128x128_S2000x128_1_0_0_1_n_n 128 rfl rfl).symm k) = ix2 k j := by
    funext ax; apply Fin.ext
    match ax with
    | ⟨0, _⟩ => exact (rhs_axis0 _ _).trans ck
    | ⟨1, _⟩ => exact rhs_axis1 _ _
  rw [l, r]

end Payloads

section Payloads2

/-- The pre-normalisation rows of a block, at an entry. -/
theorem pay3_apply (x0 x1 : S2000x128.Idx → EReal) (x2 x3 : S128x128.Idx → EReal) (x4 : S1x128.Idx → EReal)
    (i : Fin 2000) (j : Fin 128) :
    k0_pay3 (F := Ideal) x0 x1 x2 x3 x4 (ix2 i j)
      = ((∑ k : Fin 128, x0 (ix2 i k) * x2 (ix2 k j)) + x4 (ix2 (0 : Fin 1) j))
          + ∑ k : Fin 128, x1 (ix2 i k) * x3 (ix2 k j) := by
  unfold k0_pay3
  rw [addf_apply, addf_apply, matmul_apply, matmul_apply, broadcastTo_1b_ab_apply]
  simp only [truncf_apply, shapeCast_self]

/-- A column sum of a block, at a column. -/
theorem colsum_apply (src : FVec Ideal S2000x128 .f32) (j : Fin 128) :
    multiReduction (F := Ideal) .add [0] S128 src 0x00000000#32 reduces_S2000x128_S128 (.inl rfl) rfl (ix1 j)
      = ∑ i : Fin 2000, src (ix2 i j) := by
  refine (Ideal.multiReduction_add_single src 0x00000000#32 reduces_S2000x128_S128 (.inl rfl) rfl (ix1 j)).trans ?_
  refine Finset.sum_congr rfl fun i _ => congrArg src ?_
  funext a
  match a with
  | ⟨0, _⟩ => rfl
  | ⟨1, _⟩ => rfl

/-- The first row after a point: what it held plus the block's column sums. -/
theorem pay4_apply (x0 x1 : S2000x128.Idx → EReal) (x2 x3 : S128x128.Idx → EReal) (x4 v21 : S1x128.Idx → EReal)
    (j : Fin 128) :
    k0_pay4 (F := Ideal) x0 x1 x2 x3 x4 v21 (ix2 (0 : Fin 1) j)
      = v21 (ix2 (0 : Fin 1) j) + ∑ i : Fin 2000, k0_pay3 (F := Ideal) x0 x1 x2 x3 x4 (ix2 i j) := by
  unfold k0_pay4
  rw [addf_apply, shapeCast_self, shapeCast_a_1a_apply, colsum_apply]

/-- The second row after a point: what it held plus the block's column sums of squares. -/
theorem pay5_apply (x0 x1 : S2000x128.Idx → EReal) (x2 x3 : S128x128.Idx → EReal) (x4 v27 : S1x128.Idx → EReal)
    (j : Fin 128) :
    k0_pay5 (F := Ideal) x0 x1 x2 x3 x4 v27 (ix2 (0 : Fin 1) j)
      = v27 (ix2 (0 : Fin 1) j)
          + ∑ i : Fin 2000, k0_pay3 (F := Ideal) x0 x1 x2 x3 x4 (ix2 i j) * k0_pay3 (F := Ideal) x0 x1 x2 x3 x4 (ix2 i j) := by
  unfold k0_pay5
  rw [addf_apply, shapeCast_self, shapeCast_a_1a_apply, colsum_apply]
  rfl

/-- The zero rows. -/
theorem pay1_apply (j : Fin 128) : k0_pay1 (F := Ideal) (ix2 (0 : Fin 1) j) = Cert.Sage.zf := rfl
theorem pay2_apply (j : Fin 128) : k0_pay2 (F := Ideal) (ix2 (0 : Fin 1) j) = Cert.Sage.zf := rfl

end Payloads2

/-! ## The blocks a point reads, as entries of the arrays -/

section Blocks

variable (V : (c : Dev nD) → (b : Ref sig .tc) → Buf (Elt Ideal) ((c : Thread nD τ).loc b))

/-- The five input blocks a point reads, at their literal types. -/
abbrev blkA (c : Dev nD) (t : Fin cfg0.N) : S2000x128.Idx → EReal := iblk0 V c 0 t
abbrev blkH (c : Dev nD) (t : Fin cfg0.N) : S2000x128.Idx → EReal := iblk0 V c 1 t
abbrev blkWl (c : Dev nD) (t : Fin cfg0.N) : S128x128.Idx → EReal := iblk0 V c 2 t
abbrev blkWr (c : Dev nD) (t : Fin cfg0.N) : S128x128.Idx → EReal := iblk0 V c 3 t
abbrev blkB (c : Dev nD) (t : Fin cfg0.N) : S1x128.Idx → EReal := iblk0 V c 4 t

/-- Block `t` of the neighbour means holds rows `2000 t` to `2000 t + 1999`. -/
theorem blkA_apply (c : Dev nD) (t : Fin cfg0.N) (i : Fin 2000) (k : Fin 128) (r : Fin 50000)
    (hr : r.val = 2000 * t.val + i.val) : blkA V c t (ix2 i k) = aggV V c r k := by
  have hi : win0_0.index t 0 = t.val ∧ win0_0.index t 1 = 0 :=
    (by decide +kernel : ∀ t : Fin grid0.N, win0_0.index t 0 = t.val ∧ win0_0.index t 1 = 0) t
  unfold blkA iblk0 aggV
  rw [View.read_apply]
  show V c main_v22 _ = V c main_v22 _
  congr 1
  funext a
  apply Fin.ext
  match a with
  | ⟨0, _⟩ => show win0_0.index t 0 * 2000 + 1 * i.val = r.val; rw [hi.1, hr]; omega
  | ⟨1, _⟩ => show win0_0.index t 1 * 128 + 1 * k.val = k.val; rw [hi.2]; omega

/-- Block `t` of the node rows holds the same rows. -/
theorem blkH_apply (c : Dev nD) (t : Fin cfg0.N) (i : Fin 2000) (k : Fin 128) (r : Fin 50000)
    (hr : r.val = 2000 * t.val + i.val) : blkH V c t (ix2 i k) = hV V c r k := by
  have hi : win0_1.index t 0 = t.val ∧ win0_1.index t 1 = 0 :=
    (by decide +kernel : ∀ t : Fin grid0.N, win0_1.index t 0 = t.val ∧ win0_1.index t 1 = 0) t
  unfold blkH iblk0 hV
  rw [View.read_apply]
  show V c main_arg0 _ = V c main_arg0 _
  congr 1
  funext a
  apply Fin.ext
  match a with
  | ⟨0, _⟩ => show win0_1.index t 0 * 2000 + 1 * i.val = r.val; rw [hi.1, hr]; omega
  | ⟨1, _⟩ => show win0_1.index t 1 * 128 + 1 * k.val = k.val; rw [hi.2]; omega

/-- Every point reads the whole of each weight matrix -/
theorem blkWl_apply (c : Dev nD) (t : Fin cfg0.N) (k j : Fin 128) : blkWl V c t (ix2 k j) = wlV V c k j := by
  have hi : win0_2.index t 0 = 0 ∧ win0_2.index t 1 = 0 :=
    (by decide +kernel : ∀ t : Fin grid0.N, win0_2.index t 0 = 0 ∧ win0_2.index t 1 = 0) t
  unfold blkWl iblk0 wlV
  rw [View.read_apply]
  show V c main_v23 _ = V c main_v23 _
  congr 1
  funext a
  apply Fin.ext
  match a with
  | ⟨0, _⟩ => show win0_2.index t 0 * 128 + 1 * k.val = k.val; rw [hi.1]; omega
  | ⟨1, _⟩ => show win0_2.index t 1 * 128 + 1 * j.val = j.val; rw [hi.2]; omega

theorem blkWr_apply (c : Dev nD) (t : Fin cfg0.N) (k j : Fin 128) : blkWr V c t (ix2 k j) = wrV V c k j := by
  have hi : win0_3.index t 0 = 0 ∧ win0_3.index t 1 = 0 :=
    (by decide +kernel : ∀ t : Fin grid0.N, win0_3.index t 0 = 0 ∧ win0_3.index t 1 = 0) t
  unfold blkWr iblk0 wrV
  rw [View.read_apply]
  show V c main_v24 _ = V c main_v24 _
  congr 1
  funext a
  apply Fin.ext
  match a with
  | ⟨0, _⟩ => show win0_3.index t 0 * 128 + 1 * k.val = k.val; rw [hi.1]; omega
  | ⟨1, _⟩ => show win0_3.index t 1 * 128 + 1 * j.val = j.val; rw [hi.2]; omega

/-- and the whole bias row. -/
theorem blkB_apply (c : Dev nD) (t : Fin cfg0.N) (j : Fin 128) : blkB V c t (ix2 (0 : Fin 1) j) = bV V c j := by
  have hi : win0_4.index t 0 = 0 ∧ win0_4.index t 1 = 0 :=
    (by decide +kernel : ∀ t : Fin grid0.N, win0_4.index t 0 = 0 ∧ win0_4.index t 1 = 0) t
  unfold blkB iblk0 bV
  rw [View.read_apply]
  show V c main_v25 _ = V c main_v25 _
  congr 1
  funext a
  apply Fin.ext
  match a with
  | ⟨0, _⟩ => show win0_4.index t 0 * 1 + 1 * 0 = 0; rw [hi.1]
  | ⟨1, _⟩ => show win0_4.index t 1 * 128 + 1 * j.val = j.val; rw [hi.2]; omega

end Blocks

/-! ## The running sums, point by point -/

section Invariant

variable (V : (c : Dev nD) → (b : Ref sig .tc) → Buf (Elt Ideal) ((c : Thread nD τ).loc b))

/-- The rows a point computes from its blocks are the pre-normalisation rows of its block of nodes. -/
theorem lin_block (c : Dev nD) (t : Fin cfg0.N) (i : Fin 2000) (j : Fin 128) (r : Fin 50000)
    (hr : r.val = 2000 * t.val + i.val) :
    k0_pay3 (F := Ideal) (blkA V c t) (blkH V c t) (blkWl V c t) (blkWr V c t) (blkB V c t) (ix2 i j) = linV V c r j := by
  rw [pay3_apply]
  unfold linV Cert.Sage.lin
  simp only [blkA_apply V c t i _ r hr, blkH_apply V c t i _ r hr, blkWl_apply, blkWr_apply, blkB_apply]

/-- One point adds its block's column sum to the first row, -/
theorem step5 (c : Dev nD) (t : Fin cfg0.N) (ht : t.val < 25) (v : S1x128.Idx → EReal) (j : Fin 128) :
    k0_pay4 (F := Ideal) (blkA V c t) (blkH V c t) (blkWl V c t) (blkWr V c t) (blkB V c t) v (ix2 (0 : Fin 1) j)
      = v (ix2 (0 : Fin 1) j) + Cert.Sage.blockSum (fun r => linV V c r j) ⟨t.val, ht⟩ := by
  rw [pay4_apply]
  refine congrArg (v (ix2 (0 : Fin 1) j) + ·) ?_
  unfold Cert.Sage.blockSum
  exact Finset.sum_congr rfl fun i _ => lin_block V c t i j (Cert.Sage.rowOf ⟨t.val, ht⟩ i) rfl

/-- and its block's column sum of squares to the second. -/
theorem step6 (c : Dev nD) (t : Fin cfg0.N) (ht : t.val < 25) (v : S1x128.Idx → EReal) (j : Fin 128) :
    k0_pay5 (F := Ideal) (blkA V c t) (blkH V c t) (blkWl V c t) (blkWr V c t) (blkB V c t) v (ix2 (0 : Fin 1) j)
      = v (ix2 (0 : Fin 1) j) + Cert.Sage.blockSum (fun r => linV V c r j * linV V c r j) ⟨t.val, ht⟩ := by
  rw [pay5_apply]
  refine congrArg (v (ix2 (0 : Fin 1) j) + ·) ?_
  unfold Cert.Sage.blockSum
  exact Finset.sum_congr rfl fun i _ => by rw [lin_block V c t i j (Cert.Sage.rowOf ⟨t.val, ht⟩ i) rfl]

/-- After point `n` the two rows hold the running blockwise column sums. -/
theorem outs_eq (c : Dev nD) (j : Fin 128) : ∀ (n : ℕ) (hn : n < cfg0.N) (hn' : n < 25),
    ((outsAt0 V c n hn).1 : S1x128.Idx → EReal) (ix2 (0 : Fin 1) j) = Cert.Sage.acc (fun r => linV V c r j) n hn'
    ∧ ((outsAt0 V c n hn).2 : S1x128.Idx → EReal) (ix2 (0 : Fin 1) j)
        = Cert.Sage.acc (fun r => linV V c r j * linV V c r j) n hn'
  | 0, hn, hn' => by
    rw [outsAt0_A V c ⟨0, hn⟩ rfl]
    dsimp only
    constructor
    · refine (congrFun (out_A_5 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _))
        (blkA V c ⟨0, hn⟩) (blkH V c ⟨0, hn⟩) (blkWl V c ⟨0, hn⟩) (blkWr V c ⟨0, hn⟩) (blkB V c ⟨0, hn⟩)) (ix2 (0 : Fin 1) j)).trans ?_
      rw [step5 V c ⟨0, hn⟩ hn' (k0_pay1 (F := Ideal)) j]
      rfl
    · refine (congrFun (out_A_6 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _))
        (blkA V c ⟨0, hn⟩) (blkH V c ⟨0, hn⟩) (blkWl V c ⟨0, hn⟩) (blkWr V c ⟨0, hn⟩) (blkB V c ⟨0, hn⟩)) (ix2 (0 : Fin 1) j)).trans ?_
      rw [step6 V c ⟨0, hn⟩ hn' (k0_pay2 (F := Ideal)) j]
      rfl
  | n + 1, hn, hn' => by
    have hB : ¬(⟨n + 1, hn⟩ : Fin cfg0.N).val % 25 = 0 := by dsimp only; omega
    have ih := outs_eq c j n (Nat.lt_of_succ_lt hn) (Nat.lt_of_succ_lt hn')
    rw [outsAt0_B V c ⟨n + 1, hn⟩ hB]
    dsimp only
    constructor
    · refine (congrFun (out_B_5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h))
        (blkA V c ⟨n + 1, hn⟩) (blkH V c ⟨n + 1, hn⟩) (blkWl V c ⟨n + 1, hn⟩) (blkWr V c ⟨n + 1, hn⟩) (blkB V c ⟨n + 1, hn⟩) (outsAt0 V c n (Nat.lt_of_succ_lt hn)).1 (outsAt0 V c n (Nat.lt_of_succ_lt hn)).2) (ix2 (0 : Fin 1) j)).trans ?_
      rw [step5 V c ⟨n + 1, hn⟩ hn' (outsAt0 V c n (Nat.lt_of_succ_lt hn)).1 j, ih.1]
      rfl
    · refine (congrFun (out_B_6 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h))
        (blkA V c ⟨n + 1, hn⟩) (blkH V c ⟨n + 1, hn⟩) (blkWl V c ⟨n + 1, hn⟩) (blkWr V c ⟨n + 1, hn⟩) (blkB V c ⟨n + 1, hn⟩) (outsAt0 V c n (Nat.lt_of_succ_lt hn)).1 (outsAt0 V c n (Nat.lt_of_succ_lt hn)).2) (ix2 (0 : Fin 1) j)).trans ?_
      rw [step6 V c ⟨n + 1, hn⟩ hn' (outsAt0 V c n (Nat.lt_of_succ_lt hn)).2 j, ih.2]
      rfl

end Invariant

/-! ## The arrays after the last point -/

section Final

variable (V : (c : Dev nD) → (b : Ref sig .tc) → Buf (Elt Ideal) ((c : Thread nD τ).loc b))

/-- The last grid point. -/
def tLast : Fin cfg0.N := ⟨24, by rw [show cfg0.N = 25 from N_0]; decide⟩

/-- What the first row holds after the last point, as contents of its array. -/
abbrev res5 (c : Dev nD) : Buf (Elt Ideal) ((c : Thread nD τ).loc main_v28_0) := (outsAt0 V c tLast.val tLast.isLt).1

/-- The one write-back, at the last point, writes it: the block is the whole one-row array. -/
theorem flushed5_eq (c : Dev nD) (t : Fin cfg0.N) (hf : (cfg0.win 5).flush t = true) :
    (dat0 V c).flushed 5 t = ((cfg0.win 5).blk t).view.read (Elt Ideal) (res5 V c) := by
  have hN : cfg0.N = 25 := N_0
  have h24 : t.val = 24 := by have := (flush0_5 t).mp hf; have := t.isLt; omega
  obtain rfl : t = tLast := Fin.ext h24
  show (cfg0.win 5).cut (grid0.coords tLast) ((dat0 V c).after 5 tLast) = _
  rw [after0_5]
  have hz' : (fun a => win0_5.index tLast a * main_v28_0.ty.shape.size a) = fun _ => 0 :=
    funext fun a => by fin_cases a <;> decide +kernel
  exact (Memref.read_access_unit_zero (Elt Ideal) main_v28_0 hz' (fun a => by rw [congrFun hz' a]; simp) (res5 V c)).symm

/-- So the array ends holding it. -/
theorem final5 (c : Dev nD) : (dat0 V c).arrAt 5 cfg0.N = res5 V c :=
  (dat0 V c).arrAt_eq_of_cover 5 (res5 V c) (flushed5_eq V c) fun i =>
    ⟨tLast, (flush0_5 tLast).mpr rfl, by
      show i ∈ ((View.whole main_v28_0).slice (win0_5.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]; omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 128 from by decide +kernel]; omega⟩

/-- What the second row holds after the last point, as contents of its array. -/
abbrev res6 (c : Dev nD) : Buf (Elt Ideal) ((c : Thread nD τ).loc main_v28_1) := (outsAt0 V c tLast.val tLast.isLt).2

/-- The one write-back, at the last point, writes it: the block is the whole one-row array. -/
theorem flushed6_eq (c : Dev nD) (t : Fin cfg0.N) (hf : (cfg0.win 6).flush t = true) :
    (dat0 V c).flushed 6 t = ((cfg0.win 6).blk t).view.read (Elt Ideal) (res6 V c) := by
  have hN : cfg0.N = 25 := N_0
  have h24 : t.val = 24 := by have := (flush0_6 t).mp hf; have := t.isLt; omega
  obtain rfl : t = tLast := Fin.ext h24
  show (cfg0.win 6).cut (grid0.coords tLast) ((dat0 V c).after 6 tLast) = _
  rw [after0_6]
  have hz' : (fun a => win0_6.index tLast a * main_v28_1.ty.shape.size a) = fun _ => 0 :=
    funext fun a => by fin_cases a <;> decide +kernel
  exact (Memref.read_access_unit_zero (Elt Ideal) main_v28_1 hz' (fun a => by rw [congrFun hz' a]; simp) (res6 V c)).symm

/-- So the array ends holding it. -/
theorem final6 (c : Dev nD) : (dat0 V c).arrAt 6 cfg0.N = res6 V c :=
  (dat0 V c).arrAt_eq_of_cover 6 (res6 V c) (flushed6_eq V c) fun i =>
    ⟨tLast, (flush0_6 tLast).mpr rfl, by
      show i ∈ ((View.whole main_v28_1).slice (win0_6.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 1 from by decide +kernel]; omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 128 from by decide +kernel]; omega⟩

end Final

end Stats

open Stats

variable (V : (c : Dev nD) → (b : Ref sig .tc) → Buf (Elt Ideal) ((c : Thread nD τ).loc b))

/-- The first output ends at the blockwise column sums of the pre-normalisation rows. -/
theorem stats5 (c : Dev nD) (j : Fin 128) :
    ((dat0 V c).arrAt 5 cfg0.N : S1x128.Idx → EReal) (ix2 (0 : Fin 1) j) = Cert.Sage.sumK (fun r => linV V c r j) :=
  (congrFun (final5 V c) (ix2 (0 : Fin 1) j)).trans (outs_eq V c j 24 tLast.isLt (by decide)).1

/-- The second output ends at the blockwise column sums of their squares. -/
theorem stats6 (c : Dev nD) (j : Fin 128) :
    ((dat0 V c).arrAt 6 cfg0.N : S1x128.Idx → EReal) (ix2 (0 : Fin 1) j)
      = Cert.Sage.sumK (fun r => linV V c r j * linV V c r j) :=
  (congrFun (final6 V c) (ix2 (0 : Fin 1) j)).trans (outs_eq V c j 24 tLast.isLt (by decide)).2

end Cert.KernelIdeal.Val

end
-- ==== Proof.KHost.lean ====
/-
  The host operations around the two launches, read at the extended reals. Before the first launch the program
  computes the neighbour means and transposes the two weight matrices; between the launches it divides the two
  accumulated rows by the row count, forms  E[f^2] - (E f)^2 + eps  and takes its inverse square root. No host
  operation and no launch overwrites an array a later launch reads.
-/
import proofs.«143099_j87393994539131_1_alg».proof.Proof.KDefs
import proofs.«143099_j87393994539131_1_alg».proof.Proof.KTerm
import proofs.«143099_j87393994539131_1_alg».proof.Proof.KStats
import Idealize.ShloMosaic.Lib.StableHlo.Run
import Idealize.ShloMosaic.Lib.Pipeline.Value
import Idealize.ShloMosaic.Lib.ValueLayout
import Idealize.ShloMosaic.Lib.Tactic
import Idealize.ShloMosaic.Lib.IdealHost

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the first launch is entered with -/

/-- The neighbour means are the message sums over the clamped in-degrees, computed from the first two arguments. -/
theorem V1_agg (c : Dev nD) :
    (V1 m ρ c main_v22 : S50000x128.Idx → EReal)
      = HostVal.agg (F := Ideal) (m ((c : Thread nD τ).loc main_arg0)) (m ((c : Thread nD τ).loc main_arg1)) := by
  dsimp only [V1, W1, hostOps0]
  after_results_simp
  rfl

/-- The two weight matrices are staged transposed. -/
theorem V1_wl (c : Dev nD) :
    (V1 m ρ c main_v23 : S128x128.Idx → EReal) = HostVal.wT (F := Ideal) (m ((c : Thread nD τ).loc main_arg2)) := by
  dsimp only [V1, W1, hostOps0]
  after_results

theorem V1_wr (c : Dev nD) :
    (V1 m ρ c main_v24 : S128x128.Idx → EReal) = HostVal.wT (F := Ideal) (m ((c : Thread nD τ).loc main_arg4)) := by
  dsimp only [V1, W1, hostOps0]
  after_results

/-- The bias, the scale and the shift are staged as one-row matrices. -/
theorem V1_b (c : Dev nD) :
    (V1 m ρ c main_v25 : S1x128.Idx → EReal)
      = shapeCast S1x128 (m ((c : Thread nD τ).loc main_arg3) : S128.Idx → EReal) shapeCasts_S128_S1x128 := by
  dsimp only [V1, W1, hostOps0]
  after_results
  rfl

theorem V1_g (c : Dev nD) :
    (V1 m ρ c main_v26 : S1x128.Idx → EReal)
      = shapeCast S1x128 (m ((c : Thread nD τ).loc main_arg5) : S128.Idx → EReal) shapeCasts_S128_S1x128 := by
  dsimp only [V1, W1, hostOps0]
  after_results
  rfl

theorem V1_be (c : Dev nD) :
    (V1 m ρ c main_v27 : S1x128.Idx → EReal)
      = shapeCast S1x128 (m ((c : Thread nD τ).loc main_arg6) : S128.Idx → EReal) shapeCasts_S128_S1x128 := by
  dsimp only [V1, W1, hostOps0]
  after_results
  rfl

/-- No host operation before the first launch writes the node rows. -/
theorem V1_h (c : Dev nD) : V1 m ρ c main_arg0 = m ((c : Thread nD τ).loc main_arg0) := by
  refine (StableHlo.after_of_forall_not_mem (b := Proc.devRef .tc main_arg0) _ _ (List.forall_iff_forall_mem.mp ?_)).trans rfl
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-! ## What survives to the second launch -/

/-- No host operation between the launches writes an array either launch reads from the first stretch. -/
theorem V3_eq_W2 (c : Dev nD) (b : Ref sig .tc)
    (hb : b = main_v22 ∨ b = main_arg0 ∨ b = main_v23 ∨ b = main_v24 ∨ b = main_v25 ∨ b = main_v26 ∨ b = main_v27) :
    V3 m ρ c b = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    Finset.mem_singleton]
  rcases hb with rfl | rfl | rfl | rfl | rfl | rfl | rfl <;>
  · repeat' apply And.intro
    all_goals exact StableHlo.devRef_ne_of_ne (by decide)

/-- The first launch leaves each array it only reads as it found it. -/
theorem W2_in (c : Dev nD) (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem V3_agg (c : Dev nD) : V3 m ρ c main_v22 = V1 m ρ c main_v22 :=
  (V3_eq_W2 m ρ c main_v22 (by simp)).trans (W2_in m ρ c 0 rfl)
theorem V3_h (c : Dev nD) : V3 m ρ c main_arg0 = V1 m ρ c main_arg0 :=
  (V3_eq_W2 m ρ c main_arg0 (by simp)).trans (W2_in m ρ c 1 rfl)
theorem V3_wl (c : Dev nD) : V3 m ρ c main_v23 = V1 m ρ c main_v23 :=
  (V3_eq_W2 m ρ c main_v23 (by simp)).trans (W2_in m ρ c 2 rfl)
theorem V3_wr (c : Dev nD) : V3 m ρ c main_v24 = V1 m ρ c main_v24 :=
  (V3_eq_W2 m ρ c main_v24 (by simp)).trans (W2_in m ρ c 3 rfl)
theorem V3_b (c : Dev nD) : V3 m ρ c main_v25 = V1 m ρ c main_v25 :=
  (V3_eq_W2 m ρ c main_v25 (by simp)).trans (W2_in m ρ c 4 rfl)
/-- The scale and the shift are no array of the first launch. -/
theorem V3_g (c : Dev nD) : V3 m ρ c main_v26 = V1 m ρ c main_v26 :=
  (V3_eq_W2 m ρ c main_v26 (by simp)).trans (W2_of_ne m ρ c main_v26 (by decide))
theorem V3_be (c : Dev nD) : V3 m ρ c main_v27 = V1 m ρ c main_v27 :=
  (V3_eq_W2 m ρ c main_v27 (by simp)).trans (W2_of_ne m ρ c main_v27 (by decide))

/-! ## The statistics between the launches -/

/-- The column means: the first accumulated row over the row count. -/
theorem V3_mu (c : Dev nD) :
    (V3 m ρ c main_v30 : S1x128.Idx → EReal)
      = Host.divf (F := Ideal) (V2 m ρ c main_v28_0 : S1x128.Idx → EReal)
          (broadcastInDim S1x128 ![] bcast_S_S1x128 (constant (F := Ideal) S_ .f32 0x47435000#32)) := by
  dsimp only [V3, W3, hostOps1]
  after_results

/-- The inverse standard deviations:  1 / sqrt (E[f^2] - (E f)^2 + eps). -/
theorem V3_is (c : Dev nD) :
    (V3 m ρ c main_v37 : S1x128.Idx → EReal)
      = Host.rsqrt (F := Ideal) (addf
          (subf
            (Host.divf (F := Ideal) (V2 m ρ c main_v28_1 : S1x128.Idx → EReal)
              (broadcastInDim S1x128 ![] bcast_S_S1x128 (constant (F := Ideal) S_ .f32 0x47435000#32)))
            (mulf (V3 m ρ c main_v30 : S1x128.Idx → EReal) (V3 m ρ c main_v30 : S1x128.Idx → EReal)))
          (broadcastInDim S1x128 ![] bcast_S_S1x128 (constant (F := Ideal) S_ .f32 0x3727C5AC#32))) := by
  rw [V3_mu]
  dsimp only [V3, W3, hostOps1]
  after_results

/-- After the first launch its two output rows hold the blockwise column sums. -/
theorem V2_sum (c : Dev nD) (j : Fin 128) :
    (V2 m ρ c main_v28_0 : S1x128.Idx → EReal) (ix2 (0 : Fin 1) j)
      = Cert.Sage.sumK (fun r => linV (V1 m ρ) c r j) := by
  rw [show V2 m ρ c main_v28_0 = (dat0 (V1 m ρ) c).arrAt 5 cfg0.N from W2_arr m ρ c 5]
  exact stats5 (V1 m ρ) c j

theorem V2_sumSq (c : Dev nD) (j : Fin 128) :
    (V2 m ρ c main_v28_1 : S1x128.Idx → EReal) (ix2 (0 : Fin 1) j)
      = Cert.Sage.sumK (fun r => linV (V1 m ρ) c r j * linV (V1 m ρ) c r j) := by
  rw [show V2 m ρ c main_v28_1 = (dat0 (V1 m ρ) c).arrAt 6 cfg0.N from W2_arr m ρ c 6]
  exact stats6 (V1 m ρ) c j

/-- The pre-normalisation rows the first launch sees, in terms of the argument arrays. -/
theorem linV1_eq (c : Dev nD) :
    linV (V1 m ρ) c = Cert.Sage.lin
      (fun r k => (HostVal.agg (F := Ideal) (m ((c : Thread nD τ).loc main_arg0)) (m ((c : Thread nD τ).loc main_arg1)) : S50000x128.Idx → EReal) (ix2 r k))
      (fun r k => (m ((c : Thread nD τ).loc main_arg0) : S50000x128.Idx → EReal) (ix2 r k))
      (fun k j => (HostVal.wT (F := Ideal) (m ((c : Thread nD τ).loc main_arg2)) : S128x128.Idx → EReal) (ix2 k j))
      (fun k j => (HostVal.wT (F := Ideal) (m ((c : Thread nD τ).loc main_arg4)) : S128x128.Idx → EReal) (ix2 k j))
      (fun j => (m ((c : Thread nD τ).loc main_arg3) : S128.Idx → EReal) (ix1 j)) := by
  unfold linV aggV hV wlV wrV bV
  rw [V1_agg, V1_h, V1_wl, V1_wr, V1_b]
  congr 1
  funext j
  exact shapeCast_a_1a_apply _ _ 0 j

/-- The second launch sees the same rows. -/
theorem linV3_eq (c : Dev nD) : linV (V3 m ρ) c = linV (V1 m ρ) c := by
  unfold linV aggV hV wlV wrV bV
  rw [V3_agg, V3_h, V3_wl, V3_wr, V3_b]

/-- The node rows the second launch sees are the first argument. -/
theorem hV3_eq (c : Dev nD) :
    hV (V3 m ρ) c = fun r k => (m ((c : Thread nD τ).loc main_arg0) : S50000x128.Idx → EReal) (ix2 r k) := by
  unfold hV
  rw [V3_h, V1_h]

/-- The scale and the shift it sees are the last two arguments. -/
theorem gV3_eq (c : Dev nD) :
    gV (V3 m ρ) c = fun j => (m ((c : Thread nD τ).loc main_arg5) : S128.Idx → EReal) (ix1 j) := by
  unfold gV
  rw [V3_g, V1_g]
  funext j
  exact shapeCast_a_1a_apply _ _ 0 j

theorem beV3_eq (c : Dev nD) :
    beV (V3 m ρ) c = fun j => (m ((c : Thread nD τ).loc main_arg6) : S128.Idx → EReal) (ix1 j) := by
  unfold beV
  rw [V3_be, V1_be]
  funext j
  exact shapeCast_a_1a_apply _ _ 0 j

/-- The column means it is handed are the blockwise means of the rows the first launch saw. -/
theorem muV3_eq (c : Dev nD) (j : Fin 128) : muV (V3 m ρ) c j = Cert.Sage.meanK (linV (V1 m ρ) c) j := by
  unfold muV Cert.Sage.meanK Cert.Sage.nf
  rw [V3_mu, hostDivf_apply, broadcastInDim_scalar_apply, constant_apply, V2_sum]

/-- The inverse standard deviations it is handed are the blockwise ones. -/
theorem isV3_eq (c : Dev nD) (j : Fin 128) : isV (V3 m ρ) c j = Cert.Sage.istdK (linV (V1 m ρ) c) j := by
  have hmu := muV3_eq m ρ c j
  unfold muV at hmu
  unfold isV Cert.Sage.istdK Cert.Sage.nf Cert.Sage.ef
  rw [V3_is]
  show Ideal.rsqrt _ = _
  rw [addf_apply, subf_apply, mulf_apply, hostDivf_apply, broadcastInDim_scalar_apply, broadcastInDim_scalar_apply,
    constant_apply, constant_apply, V2_sumSq, hmu]

end Cert.KernelIdeal.Val

end
-- ==== Proof.KFinal.lean ====
/-
  The second launch: what its output array holds after the last grid point. Point t writes rows 2000 t … 2000 t + 1999,
  each entry the pre-normalisation entry less the column mean it is handed, times the scale, times the inverse
  standard deviation it is handed, plus the shift, clamped below at zero, plus the node's own entry. The 25 blocks
  tile the array.
-/
import proofs.«143099_j87393994539131_1_alg».proof.Proof.KDefs
import Idealize.ShloMosaic.Lib.Pipeline.Value
import Idealize.ShloMosaic.Lib.ValueLayout
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! The normalising launch: its arithmetic at an entry, the blocks it is handed as entries of the arrays, and the array
    its 25 written blocks tile. -/
namespace Norm

/-- The zero offsets, however spelt. -/
theorem hz : (![0, 0] : Fin 2 → Nat) = fun _ => 0 := funext fun a => by fin_cases a <;> rfl

/-! ## The matrix product of a block of rows by a weight matrix, at an entry -/

/-- The left operand's row coordinate is the output's. -/
theorem lhs_dot_0 (j : S2000x128.Idx) (k : dot_S2000x128_S128x128_S2000x128_1_0_0_1_n_n.contr.Idx) :
    (dot_S2000x128_S128x128_S2000x128_1_0_0_1_n_n.lhsIdx j k 0).val = (j 0).val := by
  simp [DotDims.lhsIdx, dot_S2000x128_S128x128_S2000x128_1_0_0_1_n_n]; rfl
/-- The left operand's column coordinate is the contracted one. -/
theorem lhs_dot_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k
/-- The right operand's row coordinate is the contracted one. -/
theorem rhs_dot_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k
/-- The right operand's column coordinate is the output's. -/
theorem rhs_dot_1 (j : S2000x128.Idx) (k : dot_S2000x128_S128x128_S2000x128_1_0_0_1_n_n.contr.Idx) :
    (dot_S2000x128_S128x128_S2000x128_1_0_0_1_n_n.rhsIdx j k 1).val = (j 1).val := by
  simp [DotDims.rhsIdx, dot_S2000x128_S128x128_S2000x128_1_0_0_1_n_n]; rfl

/-- The product into the zero matrix, at entry (i, j): the sum over k of row i of the left factor times column j of the
    right factor. -/
theorem matmul_at {φ₁ φ₂ : FTy} (A : FVec Ideal S2000x128 φ₁) (B : FVec Ideal S128x128 φ₂) (i : Fin 2000) (j : Fin 128) :
    matmul dot_S2000x128_S128x128_S2000x128_1_0_0_1_n_n none A B (constant (F := Ideal) S2000x128 .f32 0x00000000#32) (ix2 i j)
      = ∑ k : Fin 128, A (ix2 i k) * B (ix2 k j) := by
  show FloatOps.matmul _ none A B _ (ix2 i j) = _
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have l : dot_S2000x128_S128x128_S2000x128_1_0_0_1_n_n.lhsIdx (ix2 i j) ((contrEquiv1 _ 128 rfl rfl).symm k) = ix2 i k := by
    funext ax; apply Fin.ext
    match ax with
    | ⟨0, _⟩ => exact lhs_dot_0 _ _
    | ⟨1, _⟩ => exact (lhs_dot_1 _ _).trans ck
  have r : dot_S2000x128_S128x128_S2000x128_1_0_0_1_n_n.rhsIdx (ix2 i j) ((contrEquiv1 _ 128 rfl rfl).symm k) = ix2 k j := by
    funext ax; apply Fin.ext
    match ax with
    | ⟨0, _⟩ => exact (rhs_dot_0 _ _).trans ck
    | ⟨1, _⟩ => exact rhs_dot_1 _ _
  rw [l, r]

/-! ## What the body computes, at an entry -/

/-- The body's value at entry (i, j) of its block: the pre-normalisation entry of the block's rows, less the mean,
    times the scale, times the inverse deviation, plus the shift, clamped below at zero, plus the node's own entry. -/
theorem pay_at (x0 x1 : Vec Ideal S2000x128 .f32) (x2 x3 : Vec Ideal S128x128 .f32)
    (x4 g mu is be : Vec Ideal S1x128 .f32) (i : Fin 2000) (j : Fin 128) :
    k1_pay1 (k1_pay2 x0 x1 x2 x3 x4 g mu is be) x1 (ix2 i j)
      = max (((g (ix2 (0 : Fin 1) j)
                * ((((∑ k : Fin 128, x0 (ix2 i k) * x2 (ix2 k j)) + x4 (ix2 (0 : Fin 1) j))
                      + ∑ k : Fin 128, x1 (ix2 i k) * x3 (ix2 k j)) - mu (ix2 (0 : Fin 1) j)))
              * is (ix2 (0 : Fin 1) j)) + be (ix2 (0 : Fin 1) j)) (Ideal.ofBits .f32 0x00000000#32)
          + x1 (ix2 i j) := by
  unfold k1_pay1 k1_pay2
  dsimp only
  simp only [shapeCast_self]
  rw [addf_apply, maximumf_apply, addf_apply, mulf_apply, mulf_apply, subf_apply, addf_apply, addf_apply,
    broadcast_apply, matmul_at, matmul_at, broadcastTo_1b_ab_apply, broadcastTo_1b_ab_apply, broadcastTo_1b_ab_apply,
    broadcastTo_1b_ab_apply, broadcastTo_1b_ab_apply]
  simp only [truncf_apply]
  rfl

/-! ## The blocks the body is handed, as entries of the arrays -/

/-- A grid point of the second launch as a block number. -/
def blockOf (t : Fin cfg1.N) : Fin 25 := ⟨t.val, lt_of_lt_of_eq t.isLt (N_1 : cfg1.N = 25)⟩

/-- The index maps over the grid: the two row-blocked inputs and the output move with the point along the rows; the
    small arrays stay at their one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- The block of neighbour means at point t is rows 2000 t … 2000 t + 1999 of the array. -/
theorem agg_blk_at (c : Dev nD) (t : Fin cfg1.N) (i : Fin 2000) (k : Fin 128) :
    (iblk1 V c 0 t : Vec Ideal S2000x128 .f32) (ix2 i k) = aggV V c (Cert.Sage.rowOf (blockOf t) i) k := by
  obtain ⟨⟨e0, e1⟩, -⟩ := idx_facts t
  unfold iblk1 aggV
  rw [View.read_apply]
  show V c main_v22 _ = V c main_v22 _
  congr 1
  funext a; apply Fin.ext
  match a with
  | ⟨0, _⟩ => show win1_0.index t (0 : Fin 2) * 2000 + 1 * i.val = 2000 * t.val + i.val; rw [e0]; omega
  | ⟨1, _⟩ => show win1_0.index t (1 : Fin 2) * 128 + 1 * k.val = k.val; rw [e1]; omega

/-- The block of node rows at point t is rows 2000 t … 2000 t + 1999 of the array. -/
theorem h_blk_at (c : Dev nD) (t : Fin cfg1.N) (i : Fin 2000) (k : Fin 128) :
    (iblk1 V c 1 t : Vec Ideal S2000x128 .f32) (ix2 i k) = hV V c (Cert.Sage.rowOf (blockOf t) i) k := by
  obtain ⟨-, ⟨e0, e1⟩, -⟩ := idx_facts t
  unfold iblk1 hV
  rw [View.read_apply]
  show V c main_arg0 _ = V c main_arg0 _
  congr 1
  funext a; apply Fin.ext
  match a with
  | ⟨0, _⟩ => show win1_1.index t (0 : Fin 2) * 2000 + 1 * i.val = 2000 * t.val + i.val; rw [e0]; omega
  | ⟨1, _⟩ => show win1_1.index t (1 : Fin 2) * 128 + 1 * k.val = k.val; rw [e1]; omega

/-- The first weight matrix is handed whole at every point. -/
theorem wl_blk_at (c : Dev nD) (t : Fin cfg1.N) (k : Fin 128) (j : Fin 128) :
    (iblk1 V c 2 t : Vec Ideal S128x128 .f32) (ix2 k j) = wlV V c k j := by
  obtain ⟨-, -, ⟨e0, e1⟩, -⟩ := idx_facts t
  unfold iblk1 wlV
  rw [View.read_apply]
  show V c main_v23 _ = V c main_v23 _
  congr 1
  funext a; apply Fin.ext
  match a with
  | ⟨0, _⟩ => show win1_2.index t (0 : Fin 2) * 128 + 1 * k.val = k.val; rw [e0]; omega
  | ⟨1, _⟩ => show win1_2.index t (1 : Fin 2) * 128 + 1 * j.val = j.val; rw [e1]; omega

/-- The second weight matrix is handed whole at every point. -/
theorem wr_blk_at (c : Dev nD) (t : Fin cfg1.N) (k : Fin 128) (j : Fin 128) :
    (iblk1 V c 3 t : Vec Ideal S128x128 .f32) (ix2 k j) = wrV V c k j := by
  obtain ⟨-, -, -, ⟨e0, e1⟩, -⟩ := idx_facts t
  unfold iblk1 wrV
  rw [View.read_apply]
  show V c main_v24 _ = V c main_v24 _
  congr 1
  funext a; apply Fin.ext
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The bias row is handed whole at every point. -/
theorem b_blk_at (c : Dev nD) (t : Fin cfg1.N) (j : Fin 128) :
    (iblk1 V c 4 t : Vec Ideal S1x128 .f32) (ix2 (0 : Fin 1) j) = bV V c j := by
  obtain ⟨-, -, -, -, ⟨e0, e1⟩, -⟩ := idx_facts t
  unfold iblk1 bV
  rw [View.read_apply]
  show V c main_v25 _ = V c main_v25 _
  congr 1
  funext a; apply Fin.ext
  match a with
  | ⟨0, _⟩ => show win1_4.index t (0 : Fin 2) * 1 + 1 * 0 = 0; rw [e0]
  | ⟨1, _⟩ => show win1_4.index t (1 : Fin 2) * 128 + 1 * j.val = j.val; rw [e1]; omega

/-- The row of column means is handed whole at every point. -/
theorem mu_blk_at (c : Dev nD) (t : Fin cfg1.N) (j : Fin 128) :
    (iblk1 V c 5 t : Vec Ideal S1x128 .f32) (ix2 (0 : Fin 1) j) = muV V c j := by
  obtain ⟨-, -, -, -, -, ⟨e0, e1⟩, -⟩ := idx_facts t
  unfold iblk1 muV
  rw [View.read_apply]
  show V c main_v30 _ = V c main_v30 _
  congr 1
  funext a; apply Fin.ext
  match a with
  | ⟨0, _⟩ => show win1_5.index t (0 : Fin 2) * 1 + 1 * 0 = 0; rw [e0]
  | ⟨1, _⟩ => show win1_5.index t (1 : Fin 2) * 128 + 1 * j.val = j.val; rw [e1]; omega

/-- The row of inverse standard deviations is handed whole at every point. -/
theorem is_blk_at (c : Dev nD) (t : Fin cfg1.N) (j : Fin 128) :
    (iblk1 V c 6 t : Vec Ideal S1x128 .f32) (ix2 (0 : Fin 1) j) = isV V c j := by
  obtain ⟨-, -, -, -, -, -, ⟨e0, e1⟩, -⟩ := idx_facts t
  unfold iblk1 isV
  rw [View.read_apply]
  show V c main_v37 _ = V c main_v37 _
  congr 1
  funext a; apply Fin.ext
  match a with
  | ⟨0, _⟩ => show win1_6.index t (0 : Fin 2) * 1 + 1 * 0 = 0; rw [e0]
  | ⟨1, _⟩ => show win1_6.index t (1 : Fin 2) * 128 + 1 * j.val = j.val; rw [e1]; omega

/-- The scale row is handed whole at every point. -/
theorem g_blk_at (c : Dev nD) (t : Fin cfg1.N) (j : Fin 128) :
    (iblk1 V c 7 t : Vec Ideal S1x128 .f32) (ix2 (0 : Fin 1) j) = gV V c j := by
  obtain ⟨-, -, -, -, -, -, -, ⟨e0, e1⟩, -⟩ := idx_facts t
  unfold iblk1 gV
  rw [View.read_apply]
  show V c main_v26 _ = V c main_v26 _
  congr 1
  funext a; apply Fin.ext
  match a with
  | ⟨0, _⟩ => show win1_7.index t (0 : Fin 2) * 1 + 1 * 0 = 0; rw [e0]
  | ⟨1, _⟩ => show win1_7.index t (1 : Fin 2) * 128 + 1 * j.val = j.val; rw [e1]; omega

/-- The shift row is handed whole at every point. -/
theorem be_blk_at (c : Dev nD) (t : Fin cfg1.N) (j : Fin 128) :
    (iblk1 V c 8 t : Vec Ideal S1x128 .f32) (ix2 (0 : Fin 1) j) = beV V c j := by
  obtain ⟨-, -, -, -, -, -, -, -, ⟨e0, e1⟩, -⟩ := idx_facts t
  unfold iblk1 beV
  rw [View.read_apply]
  show V c main_v27 _ = V c main_v27 _
  congr 1
  funext a; apply Fin.ext
  match a with
  | ⟨0, _⟩ => show win1_8.index t (0 : Fin 2) * 1 + 1 * 0 = 0; rw [e0]
  | ⟨1, _⟩ => show win1_8.index t (1 : Fin 2) * 128 + 1 * j.val = j.val; rw [e1]; omega

/-! ## The whole output array -/

/-- The entry the second launch leaves at row r, column j. -/
def outAt (c : Dev nD) (r : Fin 50000) (j : Fin 128) : EReal :=
  max (((gV V c j * (linV V c r j - muV V c j)) * isV V c j) + beV V c j) Cert.Sage.zf + hV V c r j

/-- The output array, entry by entry. -/
def outArr (c : Dev nD) : S50000x128.Idx → EReal := fun i => outAt V c (i 0) (i 1)

/-- What the body computes at point t, at entry (i, j) of its block, is the array's entry at row 2000 t + i. -/
theorem body_at (c : Dev nD) (t : Fin cfg1.N) (i : Fin 2000) (j : Fin 128) :
    k1_pay1 (k1_pay2 (iblk1 V c 0 t) (iblk1 V c 1 t) (iblk1 V c 2 t) (iblk1 V c 3 t) (iblk1 V c 4 t) (iblk1 V c 7 t)
        (iblk1 V c 5 t) (iblk1 V c 6 t) (iblk1 V c 8 t)) (iblk1 V c 1 t) (ix2 i j)
      = outAt V c (Cert.Sage.rowOf (blockOf t) i) j := by
  refine (pay_at (iblk1 V c 0 t) (iblk1 V c 1 t) (iblk1 V c 2 t) (iblk1 V c 3 t) (iblk1 V c 4 t) (iblk1 V c 7 t)
    (iblk1 V c 5 t) (iblk1 V c 6 t) (iblk1 V c 8 t) i j).trans ?_
  rw [g_blk_at, b_blk_at, mu_blk_at, is_blk_at, be_blk_at, h_blk_at]
  simp only [agg_blk_at, h_blk_at, wl_blk_at, wr_blk_at]
  rfl

/-- What point t writes back is block t of the output array. -/
theorem flushed_eq (c : Dev nD) (t : Fin cfg1.N) :
    (dat1 V c).flushed 9 t = ((cfg1.win 9).blk t).view.read (Elt Ideal) (outArr V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  obtain ⟨-, -, -, -, -, -, -, -, -, ⟨e0, e1⟩⟩ := idx_facts t
  funext y
  obtain ⟨i, j, rfl⟩ : ∃ (i : Fin 2000) (j : Fin 128), y = ix2 i j := ⟨y 0, y 1, eq_ix2 y⟩
  rw [View.read_apply]
  refine (body_at V c t i j).trans ?_
  unfold outArr
  have h0 : Cert.Sage.rowOf (blockOf t) i = ((cfg1.win 9).blk t).view.emb (ix2 i j) 0 := by
    apply Fin.ext
    show 2000 * t.val + i.val = win1_9.index t (0 : Fin 2) * 2000 + 1 * i.val
    rw [e0]; omega
  have h1 : j = ((cfg1.win 9).blk t).view.emb (ix2 i j) 1 := by
    apply Fin.ext
    show j.val = win1_9.index t (1 : Fin 2) * 128 + 1 * j.val
    rw [e1]; omega
  rw [← h0, ← h1]
  rfl

/-- An index of the array is in point t's block iff each coordinate is in the block's range on its axis. -/
theorem mem_blk (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v38).slice (win1_9.rect t)).set ↔ _
  rw [View.set_slice_whole, Rect.mem_set_unit]
  exact Iff.rfl

/-- Every row lies in the block of the point numbered by the row's quotient by 2000: the 25 blocks tile the array. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, ⟨e0, e1⟩⟩ := idx_facts t
  have ht : t.val = (i 0).val / 2000 := rfl
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; rw [e0, ht]; omega
  | ⟨1, _⟩ => show win1_9.index t (1 : Fin 2) * 128 ≤ (i 1).val ∧ (i 1).val < win1_9.index t (1 : Fin 2) * 128 + 128; rw [e1]; omega

/-- So the output array ends holding the entries above. -/
theorem final (c : Dev nD) : (dat1 V c).arrAt 9 cfg1.N = outArr V c :=
  (dat1 V c).arrAt_eq_of_cover 9 (outArr V c) (fun t _ => flushed_eq V c t) cover

end Norm

open Norm in
/-- The output array after the second launch, entry by entry. -/
theorem final9 (c : Dev nD) (r : Fin 50000) (j : Fin 128) :
    ((dat1 V c).arrAt 9 cfg1.N : S50000x128.Idx → EReal) (ix2 r j)
      = max (((gV V c j * (linV V c r j - muV V c j)) * isV V c j) + beV V c j) Cert.Sage.zf + hV V c r j := by
  rw [final]
  rfl

end Cert.KernelIdeal.Val

end
-- ==== Proof.KVal.lean ====
/-
  The kernel program's result, entry by entry, in terms of the argument arrays: the second launch's output block
  formula with the column means and inverse standard deviations the host formed from the first launch's sums.
-/
import proofs.«143099_j87393994539131_1_alg».proof.Proof.KRun
import proofs.«143099_j87393994539131_1_alg».proof.Proof.KHost
import proofs.«143099_j87393994539131_1_alg».proof.Proof.KFinal

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result buffer at the last boundary is the second launch's output array. -/
theorem W4_result (c : Dev nD) :
    W4 m ρ c (Proc.devRef .tc main_v38) = (dat1 (V3 m ρ) c).arrAt 9 cfg1.N := W4_arr m ρ c 9

/-- The kernel program's result at row `r`, column `j`: the blockwise normalisation of the specification. -/
theorem kernel_value (c : Dev nD) (r : Fin 50000) (j : Fin 128) :
    (W4 m ρ c (Proc.devRef .tc main_v38) : S50000x128.Idx → EReal) (ix2 r j)
      = Cert.Sage.outK
          (Cert.Sage.lin
            (fun r k => (HostVal.agg (F := Ideal) (m ((c : Thread nD τ).loc main_arg0)) (m ((c : Thread nD τ).loc main_arg1)) : S50000x128.Idx → EReal) (ix2 r k))
            (fun r k => (m ((c : Thread nD τ).loc main_arg0) : S50000x128.Idx → EReal) (ix2 r k))
            (fun k j => (HostVal.wT (F := Ideal) (m ((c : Thread nD τ).loc main_arg2)) : S128x128.Idx → EReal) (ix2 k j))
            (fun k j => (HostVal.wT (F := Ideal) (m ((c : Thread nD τ).loc main_arg4)) : S128x128.Idx → EReal) (ix2 k j))
            (fun j => (m ((c : Thread nD τ).loc main_arg3) : S128.Idx → EReal) (ix1 j)))
          (fun r k => (m ((c : Thread nD τ).loc main_arg0) : S50000x128.Idx → EReal) (ix2 r k))
          (fun j => (m ((c : Thread nD τ).loc main_arg5) : S128.Idx → EReal) (ix1 j))
          (fun j => (m ((c : Thread nD τ).loc main_arg6) : S128.Idx → EReal) (ix1 j)) r j := by
  refine (congrFun (W4_result m ρ c) (ix2 r j)).trans ?_
  refine (final9 (V3 m ρ) c r j).trans ?_
  rw [linV3_eq, muV3_eq, isV3_eq, gV3_eq, beV3_eq, hV3_eq, linV1_eq]
  rfl

end Cert.KernelIdeal.Val

end
-- ==== Proof.RefTerm.lean ====
/-
  What the reference computes, as one term of its argument arrays: the host operations of its program composed
  in program order (its two outlined functions, the variance and the clamp at zero, inlined where they are called).
  Generic in the float instance; read at the extended reals it is the value the certificate compares.
-/
import proofs.«143099_j87393994539131_1_alg».proof.Proof.Gen.ReferenceIdeal

noncomputable section

namespace Cert.ReferenceIdeal.RefVal

open Cert.ReferenceIdeal Cert.ReferenceIdeal.Gen Idealize.ShloMosaic Idealize.ShloMosaic.TcCoe

variable {F : FTy → Type} [FloatOps F]

/-- The edges' source node ids (row 0 of the edge list). -/
abbrev srcIdx (a1 : IVec S2x800000 32) : IVec S800000 32 :=
  shapeCast S800000 (extractStridedSlice S1x800000 ![0, 0] a1 slices_S2x800000_S1x800000_0_0) shapeCasts_S1x800000_S800000

/-- The edges' target node ids (row 1 of the edge list). -/
abbrev dstIdx (a1 : IVec S2x800000 32) : IVec S800000 32 :=
  shapeCast S800000 (extractStridedSlice S1x800000 ![1, 0] a1 slices_S2x800000_S1x800000_1_0) shapeCasts_S1x800000_S800000

/-- A negative source id counts from the end. -/
abbrev srcNorm (a1 : IVec S2x800000 32) : IVec S800000 32 :=
  select (cmpi .slt (srcIdx a1) (broadcastInDim S800000 ![] bcast_S_S800000 (constantI S_ 32 0#32)))
    (addi (srcIdx a1) (broadcastInDim S800000 ![] bcast_S_S800000 (constantI S_ 32 50000#32))) (srcIdx a1)

/-- One message per edge: the source node's row. -/
abbrev msgs (a0 : FVec F S50000x128 .f32) (a1 : IVec S2x800000 32) : FVec F S800000x128 .f32 :=
  Host.gather gather_S50000x128_S800000x1_S800000x128_1_0_n_n_0_1_1128 a0
    (broadcastInDim S800000x1 ![0] bcast_S800000_S800000x1_0 (srcNorm a1))

/-- The messages summed per target node. -/
abbrev msgSum (a0 : FVec F S50000x128 .f32) (a1 : IVec S2x800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 (dstIdx a1)) (msgs a0 a1)

/-- The number of incoming edges per node. -/
abbrev deg (a1 : IVec S2x800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 (dstIdx a1))
    (broadcastInDim S800000 ![] bcast_S_S800000 (constant (F := F) S_ .f32 0x3F800000#32))

/-- The mean of the incoming messages (the sum over a count clamped below by one). -/
abbrev agg (a0 : FVec F S50000x128 .f32) (a1 : IVec S2x800000 32) : FVec F S50000x128 .f32 :=
  Host.divf (msgSum a0 a1)
    (broadcastInDim S50000x128 ![0, 1] bcast_S50000x1_S50000x128_0_1
      (broadcastInDim S50000x1 ![0] bcast_S50000_S50000x1_0
        (maximumf (deg (F := F) a1) (broadcastInDim S50000 ![] bcast_S_S50000 (constant (F := F) S_ .f32 0x3F800000#32)))))

/-- A weight matrix transposed. -/
abbrev wT (a : FVec F S128x128 .f32) : FVec F S128x128 .f32 :=
  transpose S128x128 [1, 0] a transposes_S128x128_S128x128_1_0

/-- A 128-vector repeated down all rows. -/
abbrev rows (v : FVec F S128 .f32) : FVec F S50000x128 .f32 :=
  broadcastInDim S50000x128 ![0, 1] bcast_S1x128_S50000x128_0_1 (broadcastInDim S1x128 ![1] bcast_S128_S1x128_1 v)

/-- The layer before normalisation. -/
abbrev pre (a0 : FVec F S50000x128 .f32) (a1 : IVec S2x800000 32) (a2 : FVec F S128x128 .f32) (a3 : FVec F S128 .f32)
    (a4 : FVec F S128x128 .f32) : FVec F S50000x128 .f32 :=
  addf (addf (Host.dotGeneral dot_S50000x128_S128x128_S50000x128_1_0_0_1_n_n none (agg a0 a1) (wT a2)) (rows a3))
    (Host.dotGeneral dot_S50000x128_S128x128_S50000x128_1_0_0_1_n_n none a0 (wT a4))

/-- A column sum over all rows, from zero. -/
abbrev colSum (x : FVec F S50000x128 .f32) : FVec F S128 .f32 :=
  Host.reduceAdd x (constant (F := F) S_ .f32 0x00000000#32) reducesTo_S50000x128_S128_d0 h_S_

/-- The column means. -/
abbrev mean (x : FVec F S50000x128 .f32) : FVec F S128 .f32 :=
  Host.divf (colSum x) (broadcastInDim S128 ![] bcast_S_S128 (constant (F := F) S_ .f32 0x47435000#32))

/-- The column means as the variance function computes them (kept as a row). -/
abbrev vmean (x : FVec F S50000x128 .f32) : FVec F S1x128 .f32 :=
  Host.divf (broadcastInDim S1x128 ![1] bcast_S128_S1x128_1 (colSum x))
    (broadcastInDim S1x128 ![] bcast_S_S1x128 (constant (F := F) S_ .f32 0x47435000#32))

/-- The entries with their column mean taken off. -/
abbrev centred (x : FVec F S50000x128 .f32) : FVec F S50000x128 .f32 :=
  subf x (broadcastInDim S50000x128 ![0, 1] bcast_S1x128_S50000x128_0_1 (vmean x))

/-- The divisor of the variance: the row count less the (zero) correction. -/
abbrev dofs : FVec F S_ .f32 :=
  subf (constant (F := F) S_ .f32 0x47435000#32) (sitofp .f32 (constantI S_ 32 0#32))

/-- The column variances (guarded by the divisor being positive). -/
abbrev var (x : FVec F S50000x128 .f32) : FVec F S128 .f32 :=
  select (broadcastInDim S128 ![] bcast_S_S128 (cmpf .ogt (dofs (F := F)) (constant (F := F) S_ .f32 0x00000000#32)))
    (Host.divf (colSum (mulf (centred x) (centred x))) (broadcastInDim S128 ![] bcast_S_S128 (dofs (F := F))))
    (broadcastInDim S128 ![] bcast_S_S128 (id (constant (F := F) S_ .f32 0x7FC00000#32)))

/-- The whole reference: normalise, scale, shift, clamp at zero, add the input back. -/
abbrev res (a0 : FVec F S50000x128 .f32) (a1 : IVec S2x800000 32) (a2 : FVec F S128x128 .f32) (a3 : FVec F S128 .f32)
    (a4 : FVec F S128x128 .f32) (a5 : FVec F S128 .f32) (a6 : FVec F S128 .f32) : FVec F S50000x128 .f32 :=
  addf
    (maximumf
      (addf
        (mulf (mulf (rows a5) (subf (pre a0 a1 a2 a3 a4) (rows (mean (pre a0 a1 a2 a3 a4)))))
          (rows (Host.rsqrt (addf (var (pre a0 a1 a2 a3 a4))
            (broadcastInDim S128 ![] bcast_S_S128 (constant (F := F) S_ .f32 0x3727C5AC#32))))))
        (rows a6))
      (broadcastInDim S50000x128 ![] bcast_S_S50000x128 (constant (F := F) S_ .f32 0x00000000#32)))
    a0

end Cert.ReferenceIdeal.RefVal

end
-- ==== Proof.RefRun.lean ====
/-
  The reference's program, run: a straight line of host operations (its two outlined functions inlined where they
  are called), so every execution ends with the result buffer at the composed term of the arguments and the
  arguments unchanged.
-/
import proofs.«143099_j87393994539131_1_alg».proof.Proof.RefTerm
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The program's operations in order: forty-three of its own up to the call of the variance, that function's
    nineteen over the call's buffers with the three of the selection it calls in turn, sixteen more of the program's
    own, the three of the clamp at zero, and the last addition. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v30) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v30) main_call0.v4 main_call0.v5 subf,
    TRef.binary main_call0.v5 main_call0.v5 main_call0.v6 mulf,
    TRef.unary (.of main_c_6) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v33 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v30 main_v36 main_v37 (subf : (⟨S50000x128, .f32⟩ : BufTy).Contents (Elt F) → (⟨S50000x128, .f32⟩ : BufTy).Contents (Elt F) → (⟨S50000x128, .f32⟩ : BufTy).Contents (Elt F)),
    unary main_arg5 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v39 main_v37 main_v40 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v41 (broadcastInDim S128 ![] bcast_S_S128 : (⟨S_, .f32⟩ : BufTy).Contents (Elt F) → (⟨S128, .f32⟩ : BufTy).Contents (Elt F)),
    binary main_v34 main_v41 main_v42 (addf : (⟨S128, .f32⟩ : BufTy).Contents (Elt F) → (⟨S128, .f32⟩ : BufTy).Contents (Elt F) → (⟨S128, .f32⟩ : BufTy).Contents (Elt F)),
    unary main_v42 main_v43 (Host.rsqrt : (⟨S128, .f32⟩ : BufTy).Contents (Elt F) → (⟨S128, .f32⟩ : BufTy).Contents (Elt F)),
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v40 main_v45 main_v46 (mulf : (⟨S50000x128, .f32⟩ : BufTy).Contents (Elt F) → (⟨S50000x128, .f32⟩ : BufTy).Contents (Elt F) → (⟨S50000x128, .f32⟩ : BufTy).Contents (Elt F)),
    unary main_arg6 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v49) main_call1.v0 main_call1.v1 maximumf,
    binary main_v50 main_arg0 main_v51 (addf : (⟨S50000x128, .f32⟩ : BufTy).Contents (Elt F) → (⟨S50000x128, .f32⟩ : BufTy).Contents (Elt F) → (⟨S50000x128, .f32⟩ : BufTy).Contents (Elt F)) ]

-- eighty-five binds re-associated: the rewrite under the chain recurses once per statement
set_option maxRecDepth 4096 in
set_option maxHeartbeats 4000000 in
/-- The program is that straight line: its two windows and the outlined functions unfolded at their calls, both
    sides are one chain of steps once sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub ..⟩

/-- What the line leaves in the result buffer: the composed term of the arguments' contents. -/
theorem res_eq (V : Valuation τ sig (Elt F)) :
    after ops V (main_v51 : DevRef τ sig)
      = res (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-! No operation writes an argument's buffer: each keeps its contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- Every weakly fair execution of the reference terminates with its result at `res` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = res (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v51).trans (res_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _)⟩)
    (run_seq scopedRefs_eq scopedSems_eq defs main (fun _ => ops) main_eq (fun _ => ops_sub) m ρ)

end Cert.ReferenceIdeal.RefVal

end
-- ==== Proof.RefRead.lean ====
/-
  The reference's term read at an entry, at the extended reals: the two matrix products are sums over the 128
  contracted coordinates, the column sums are the initial zero plus the sum over all 50000 rows, a vector repeated
  down the rows is read at its column; so the entry is the one-shot normalisation of the specification.
-/
import proofs.«143099_j87393994539131_1_alg».proof.Proof.RefTerm
import proofs.«143099_j87393994539131_1_alg».proof.Proof.Spec
import Idealize.ShloMosaic.Lib.Pipeline.Value
import Idealize.ShloMosaic.Lib.ValueLayout
import Idealize.ShloMosaic.Lib.StackMember

noncomputable section

namespace Cert.ReferenceIdeal.RefVal

open Cert.ReferenceIdeal Cert.ReferenceIdeal.Gen Idealize.ShloMosaic Idealize.ShloMosaic.TcCoe Idealize.ShloMosaic.ValueIdx

/-- A vector repeated down the rows, read at an entry, is the vector at the entry's column. -/
theorem rows_apply (v : FVec Ideal S128 .f32) (r : Fin 50000) (j : Fin 128) :
    rows (F := Ideal) v (ix2 r j) = v (ix1 j) := by
  refine (broadcastInDim_apply _ _ _ (ix2 r j) (ix2 (0 : Fin 1) j) ?_).trans ?_
  · intro a
    match a with
    | ⟨0, _⟩ => rfl
    | ⟨1, _⟩ => rfl
  · refine broadcastInDim_apply _ _ _ _ (ix1 j) ?_
    intro a
    match a with
    | ⟨0, _⟩ => rfl

/-- A one-row matrix repeated down the rows, read at an entry, is the row at the entry's column. -/
theorem rowBcast_apply (v : FVec Ideal S1x128 .f32) (r : Fin 50000) (j : Fin 128) :
    broadcastInDim S50000x128 ![0, 1] bcast_S1x128_S50000x128_0_1 v (ix2 r j) = v (ix2 (0 : Fin 1) j) := by
  refine broadcastInDim_apply _ _ _ (ix2 r j) (ix2 (0 : Fin 1) j) ?_
  intro a
  match a with
  | ⟨0, _⟩ => rfl
  | ⟨1, _⟩ => rfl

/-- A vector laid out as one row, read at that row's entry, is the vector at the column. -/
theorem asRow_apply (v : FVec Ideal S128 .f32) (j : Fin 128) :
    broadcastInDim S1x128 ![1] bcast_S128_S1x128_1 v (ix2 (0 : Fin 1) j) = v (ix1 j) := by
  refine broadcastInDim_apply _ _ _ _ (ix1 j) ?_
  intro a
  match a with
  | ⟨0, _⟩ => rfl

/-- The matrix product at an entry: the sum over the contracted coordinate. -/
theorem dot_apply (l : FVec Ideal S50000x128 .f32) (w : FVec Ideal S128x128 .f32) (r : Fin 50000) (j : Fin 128) :
    Host.dotGeneral dot_S50000x128_S128x128_S50000x128_1_0_0_1_n_n none l w (ix2 r j)
      = ∑ k : Fin 128, l (ix2 r k) * w (ix2 k j) :=
  StackMember.dotGeneral_plain_apply none l w r j

/-- The layer before normalisation at an entry, over any aggregate and any two weight matrices. -/
theorem pre_core (A x : FVec Ideal S50000x128 .f32) (W1 W2 : FVec Ideal S128x128 .f32) (b : FVec Ideal S128 .f32)
    (r : Fin 50000) (j : Fin 128) :
    addf (addf (Host.dotGeneral dot_S50000x128_S128x128_S50000x128_1_0_0_1_n_n none A W1) (rows (F := Ideal) b))
        (Host.dotGeneral dot_S50000x128_S128x128_S50000x128_1_0_0_1_n_n none x W2) (ix2 r j)
      = Cert.Sage.lin (fun r k => A (ix2 r k)) (fun r k => x (ix2 r k)) (fun k j => W1 (ix2 k j)) (fun k j => W2 (ix2 k j))
          (fun j => b (ix1 j)) r j := by
  rw [addf_apply, addf_apply, dot_apply, dot_apply, rows_apply]
  rfl

/-- The reference's layer before normalisation at an entry, its aggregate and transposed weights left as arrays. -/
theorem pre_apply (a0 : FVec Ideal S50000x128 .f32) (a1 : IVec S2x800000 32) (a2 : FVec Ideal S128x128 .f32)
    (a3 : FVec Ideal S128 .f32) (a4 : FVec Ideal S128x128 .f32) (r : Fin 50000) (j : Fin 128) :
    pre (F := Ideal) a0 a1 a2 a3 a4 (ix2 r j)
      = Cert.Sage.lin (fun r k => agg (F := Ideal) a0 a1 (ix2 r k)) (fun r k => a0 (ix2 r k))
          (fun k j => wT (F := Ideal) a2 (ix2 k j)) (fun k j => wT (F := Ideal) a4 (ix2 k j)) (fun j => a3 (ix1 j)) r j :=
  pre_core (agg (F := Ideal) a0 a1) a0 (wT (F := Ideal) a2) (wT (F := Ideal) a4) a3 r j

/-- The index over column `j` with row `k` put back on the summed axis is the entry `(k, j)`. -/
theorem lift_eq (hR : S50000x128.Reduces [0] S128) (j : Fin 128) (k : Fin 50000) : hR.lift (ix1 j) k = ix2 k j := by
  funext a
  apply Fin.ext
  match a with
  | ⟨0, _⟩ => rfl
  | ⟨1, _⟩ => rfl

/-- A column sum from zero, read at a column, is the specification's one-shot sum of that column. -/
theorem colSum_apply (x : FVec Ideal S50000x128 .f32) (j : Fin 128) :
    colSum (F := Ideal) x (ix1 j) = Cert.Sage.sumR (fun r => x (ix2 r j)) := by
  have hR : S50000x128.Reduces [0] S128 := by decide
  refine (Ideal.hostReduceAdd_single reducesTo_S50000x128_S128_d0 hR x _ (ix1 j)).trans ?_
  show _ + ∑ k : Fin 50000, x (hR.lift (ix1 j) k) = _
  simp only [lift_eq]
  rfl

/-- The column means are the specification's. -/
theorem mean_apply (x : FVec Ideal S50000x128 .f32) (j : Fin 128) :
    mean (F := Ideal) x (ix1 j) = Cert.Sage.meanR (fun r k => x (ix2 r k)) j := by
  show Ideal.div (colSum (F := Ideal) x (ix1 j)) (Ideal.ofBits .f32 0x47435000#32) = _
  rw [colSum_apply]
  rfl

/-- The column means kept as a row are the same means. -/
theorem vmean_apply (x : FVec Ideal S50000x128 .f32) (j : Fin 128) :
    vmean (F := Ideal) x (ix2 (0 : Fin 1) j) = Cert.Sage.meanR (fun r k => x (ix2 r k)) j := by
  show Ideal.div (broadcastInDim S1x128 ![1] bcast_S128_S1x128_1 (colSum (F := Ideal) x) (ix2 (0 : Fin 1) j))
      (Ideal.ofBits .f32 0x47435000#32) = _
  rw [asRow_apply, colSum_apply]
  rfl

/-- An entry with its column mean taken off. -/
theorem centred_apply (x : FVec Ideal S50000x128 .f32) (r : Fin 50000) (j : Fin 128) :
    centred (F := Ideal) x (ix2 r j) = x (ix2 r j) - Cert.Sage.meanR (fun r k => x (ix2 r k)) j := by
  unfold centred
  rw [subf_apply, rowBcast_apply, vmean_apply]

/-- The column variances are the specification's: the guard and the divisor are the row count less the zero correction,
    the sum is the column sum of the squared centred entries. -/
theorem var_apply (x : FVec Ideal S50000x128 .f32) (j : Fin 128) :
    var (F := Ideal) x (ix1 j) = Cert.Sage.varR (fun r k => x (ix2 r k)) j := by
  show Scalar.select (Ideal.cmp .ogt (Cert.Sage.nf - Cert.Sage.s0) Cert.Sage.zf)
      (Ideal.div (colSum (F := Ideal) (mulf (centred (F := Ideal) x) (centred (F := Ideal) x)) (ix1 j))
        (Cert.Sage.nf - Cert.Sage.s0)) Cert.Sage.nanf = _
  rw [colSum_apply]
  simp only [mulf_apply, centred_apply]
  rfl

/-- The reference's result, entry by entry. -/
theorem res_apply (a0 : FVec Ideal S50000x128 .f32) (a1 : IVec S2x800000 32) (a2 : FVec Ideal S128x128 .f32)
    (a3 : FVec Ideal S128 .f32) (a4 : FVec Ideal S128x128 .f32) (a5 : FVec Ideal S128 .f32) (a6 : FVec Ideal S128 .f32)
    (r : Fin 50000) (j : Fin 128) :
    res (F := Ideal) a0 a1 a2 a3 a4 a5 a6 (ix2 r j)
      = Cert.Sage.outR
          (Cert.Sage.lin (fun r k => agg (F := Ideal) a0 a1 (ix2 r k)) (fun r k => a0 (ix2 r k))
            (fun k j => wT (F := Ideal) a2 (ix2 k j)) (fun k j => wT (F := Ideal) a4 (ix2 k j)) (fun j => a3 (ix1 j)))
          (fun r k => a0 (ix2 r k)) (fun j => a5 (ix1 j)) (fun j => a6 (ix1 j)) r j := by
  unfold res
  rw [addf_apply, maximumf_apply, addf_apply, mulf_apply, mulf_apply, rows_apply, rows_apply, rows_apply, subf_apply,
    rows_apply, mean_apply]
  show max (a5 (ix1 j) * (pre (F := Ideal) a0 a1 a2 a3 a4 (ix2 r j) - _)
      * Ideal.rsqrt (var (F := Ideal) (pre (F := Ideal) a0 a1 a2 a3 a4) (ix1 j) + Cert.Sage.ef) + a6 (ix1 j)) Cert.Sage.zf
      + a0 (ix2 r j) = _
  rw [var_apply]
  simp only [pre_apply]
  rfl

end Cert.ReferenceIdeal.RefVal

end
-- ==== Proof.Finite.lean ====
/-
  Finiteness. The precondition says every float argument is finite, that is, every entry is a real number. The
  neighbour means are then real: a gathered row is a row of the input; a scatter-add adds finitely many of them to
  zero; the count is a finite sum of ones, so its maximum with one is a real at least one, and a real divided by a
  nonzero real is real. A transposed matrix has the entries of the matrix.
-/
import proofs.«143099_j87393994539131_1_alg».proof.Proof.KTerm
import proofs.«143099_j87393994539131_1_alg».proof.Defs
import proofs.«143099_j87393994539131_1_alg».proof.Proof.Gen.Pre_finite_inputs
import Idealize.ShloMosaic.Lib.ReduceAll
import Idealize.ShloMosaic.Lib.ValueIdx
import Idealize.ShloMosaic.PureOps.Ideal.Laws
import Idealize.ShloMosaic.Lib.IdealHost

noncomputable section

namespace Cert.KernelIdeal.Fin

open Cert.KernelIdeal Cert.KernelIdeal.Gen
open Idealize.ShloMosaic Idealize.ShloMosaic.TcCoe Idealize.ShloMosaic.ValueIdx Idealize.SL.Sem

/-! ## Arrays of real numbers -/

/-- Every entry of the array is a real number. -/
def IsReal {S : Shape} (x : S.Idx → EReal) : Prop := ∀ i, ∃ r : ℝ, x i = (r : EReal)

/-- Every entry of the array is a nonzero real number. -/
def IsNZReal {S : Shape} (x : S.Idx → EReal) : Prop := ∀ i, ∃ r : ℝ, r ≠ 0 ∧ x i = (r : EReal)

/-- A finite sum of real numbers is a real number. -/
theorem exists_real_sum {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r, hr⟩ := hf a (Finset.mem_insert_self a s)
    obtain ⟨t, ht⟩ := ih (fun j hj => hf j (Finset.mem_insert_of_mem hj))
    exact ⟨r + t, by rw [Finset.sum_insert ha, hr, ht, EReal.coe_add]⟩

/-- A gathered array holds entries of its operand. -/
theorem IsReal.gather {s si t : Shape} {w : Nat} (d : GatherDims s si t) {x : s.Idx → EReal} (hx : IsReal x)
    (idx : IVec si w) : IsReal (Host.gather d x idx) :=
  fun j => hx (d.operandIdx j idx)

/-- A broadcast array holds entries of its operand. -/
theorem IsReal.bcast {s t : Shape} {dims : Fin s.rank → Fin t.rank} (h : s.BroadcastsInDim t dims) {x : s.Idx → EReal}
    (hx : IsReal x) : IsReal (broadcastInDim t dims h x) :=
  fun j => hx _

theorem IsNZReal.bcast {s t : Shape} {dims : Fin s.rank → Fin t.rank} (h : s.BroadcastsInDim t dims) {x : s.Idx → EReal}
    (hx : IsNZReal x) : IsNZReal (broadcastInDim t dims h x) :=
  fun j => hx _

/-- The constant zero array. -/
theorem isReal_zero (S : Shape) : IsReal (constant (F := Ideal) S .f32 0x00000000#32) :=
  fun _ => ⟨0, by show Ideal.ofBits .f32 0x00000000#32 = _; rw [Ideal.ofBits_zero_f32]; rfl⟩

/-- The constant one array. -/
theorem isReal_one (S : Shape) : IsReal (constant (F := Ideal) S .f32 0x3F800000#32) :=
  fun _ => ⟨1, by show Ideal.ofBits .f32 0x3F800000#32 = _; rw [Ideal.ofBits_one_f32]; rfl⟩

/-- A scatter-add into a real array of real updates: each entry is the operand's plus a finite sum of updates. -/
theorem IsReal.scatterAdd {s si su : Shape} {w : Nat} (d : ScatterDims s si su) {x : FVec Ideal s .f32} (hx : IsReal x)
    (idx : IVec si w) {upd : FVec Ideal su .f32} (hu : IsReal upd) : IsReal (Host.scatterAdd (F := Ideal) d x idx upd) := by
  intro i
  obtain ⟨r, hr⟩ := hx i
  have key : ∀ S : Finset su.Idx, ∃ q : ℝ, x i + ∑ j ∈ S, upd j = (q : EReal) := fun S => by
    obtain ⟨t, ht⟩ := exists_real_sum S upd (fun j _ => hu j)
    exact ⟨r + t, by rw [hr, ht, EReal.coe_add]⟩
  exact key _

/-- The maximum of a real number and one is a real number that is not zero. -/
theorem IsReal.max_one {s : Shape} {x y : FVec Ideal s .f32} (hx : IsReal x) (hy : ∀ i, y i = 1) :
    IsNZReal (maximumf (F := Ideal) x y) := by
  intro i
  obtain ⟨r, hr⟩ := hx i
  refine ⟨max r 1, ?_, ?_⟩
  · exact ne_of_gt (lt_of_lt_of_le one_pos (le_max_right r 1))
  · show max (x i) (y i) = _
    rw [hr, hy i, ← EReal.coe_one]
    exact (EReal.coe_strictMono.monotone.map_max).symm

/-- A real number divided by a nonzero real number is a real number. -/
theorem IsReal.div {s : Shape} {a b : FVec Ideal s .f32} (ha : IsReal a) (hb : IsNZReal b) :
    IsReal (Host.divf (F := Ideal) a b) := by
  intro i
  obtain ⟨r, hr⟩ := ha i
  obtain ⟨t, ht0, ht⟩ := hb i
  refine ⟨r * (1 / t), ?_⟩
  show Ideal.div (a i) (b i) = _
  rw [hr, ht, Ideal.div_coe ht0, EReal.coe_mul]

/-! ## The precondition read back -/

/-- A conjunction of two truth values at an index. -/
theorem andi_apply_eq_one {s : Shape} (x y : IVec s 1) (i : s.Idx) :
    Idealize.ShloMosaic.andi x y i = 1#1 ↔ x i = 1#1 ∧ y i = 1#1 := IntOp.andi_eq_one

/-- A truth value made from a Boolean is one exactly when the Boolean is true. -/
theorem ofBool_eq_one {b : Bool} : BitVec.ofBool b = 1#1 ↔ b = true := by cases b <;> decide

/-- The word of positive infinity. -/
theorem ofBits_inf_f32 : Ideal.ofBits .f32 0x7F800000#32 = ⊤ := by simp [Ideal.ofBits, Ideal.ieee]

/-- An extended real whose absolute value is below infinity is a real number. -/
theorem exists_real_of_abs_lt_top {y : EReal} (h : max y (-y) < ⊤) : ∃ r : ℝ, y = (r : EReal) := by
  have h1 : y ≠ ⊤ := fun e => by rw [e] at h; simp at h
  have h2 : y ≠ ⊥ := fun e => by rw [e] at h; simp at h
  exact ⟨y.toReal, (EReal.coe_toReal h1 h2).symm⟩

/-- If the conjunction over all entries of |x| < +∞ is true, every entry of x is a real number. -/
theorem isReal_of_all_abs_lt_inf {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi
          (cmpf .olt (Host.absf x) (broadcastInDim S ![] hb (constant (F := Ideal) ⟨0, ![]⟩ .f32 0x7F800000#32)))
          (constantI ⟨0, ![]⟩ 1 1#1) hr hu ix0 = 1#1) : IsReal x := by
  intro i
  haveI : Subsingleton (⟨0, ![]⟩ : Shape).Idx := ⟨fun a b => funext fun d => d.elim0⟩
  have h := Host.reduce_andi_all _ _ hr hu ix0 e i
  have h' : Ideal.cmp .olt (max (x i) (-(x i))) (Ideal.ofBits .f32 0x7F800000#32) = 1#1 := h
  rw [ofBits_inf_f32] at h'
  exact exists_real_of_abs_lt_top (of_decide_eq_true (ofBool_eq_one.1 h'))

/-- Under the precondition the node rows, the two weight matrices and the bias hold real numbers. -/
theorem inputs_finite (m : (ℓ : Loc nD τ sig) → Buf (Elt Ideal) ℓ) (hpre : Cert.Pre_KernelIdeal m) (c : Dev nD) :
    (∀ i, ∃ x : ℝ, (m ((c.tc : Thread nD τ).loc main_arg0) : S50000x128.Idx → EReal) i = (x : EReal))
    ∧ (∀ i, ∃ x : ℝ, (m ((c.tc : Thread nD τ).loc main_arg2) : S128x128.Idx → EReal) i = (x : EReal))
    ∧ (∀ i, ∃ x : ℝ, (m ((c.tc : Thread nD τ).loc main_arg3) : S128.Idx → EReal) i = (x : EReal))
    ∧ (∀ i, ∃ x : ℝ, (m ((c.tc : Thread nD τ).loc main_arg4) : S128x128.Idx → EReal) i = (x : EReal)) := by
  have h := congrFun (hpre c) ix0
  dsimp only [Cert.Pre_finite_inputs.fn, Cert.Pre_finite_inputs.fn_part1] at h
  simp only [andi_apply_eq_one] at h
  obtain ⟨⟨⟨⟨⟨h0, h2⟩, h3⟩, h4⟩, h5⟩, h6⟩ := h
  exact ⟨isReal_of_all_abs_lt_inf _ _ _ _ h0, isReal_of_all_abs_lt_inf _ _ _ _ h2,
    isReal_of_all_abs_lt_inf _ _ _ _ h3, isReal_of_all_abs_lt_inf _ _ _ _ h4⟩

/-- The neighbour means of real rows are real, whatever the edge list. -/
theorem agg_finite (a0 : FVec Ideal S50000x128 .f32) (a1 : IVec S2x800000 32)
    (h0 : ∀ i, ∃ x : ℝ, a0 i = (x : EReal)) (i : S50000x128.Idx) :
    ∃ x : ℝ, HostVal.agg (F := Ideal) a0 a1 i = (x : EReal) := by
  have hmsgs : IsReal (HostVal.msgs (F := Ideal) a0 a1) := IsReal.gather _ h0 _
  have hsum : IsReal (HostVal.msgSum (F := Ideal) a0 a1) :=
    IsReal.scatterAdd _ (IsReal.bcast _ (isReal_zero _)) _ hmsgs
  have hdeg : IsReal (HostVal.deg (F := Ideal) a1) :=
    IsReal.scatterAdd _ (IsReal.bcast _ (isReal_zero _)) _ (IsReal.bcast _ (isReal_one _))
  have hone : ∀ j, broadcastInDim S50000 ![] bcast_S_S50000 (constant (F := Ideal) S_ .f32 0x3F800000#32) j = 1 :=
    fun j => Ideal.ofBits_one_f32
  exact IsReal.div hsum (IsNZReal.bcast _ (IsNZReal.bcast _ (IsReal.max_one hdeg hone))) i

/-- A transposed real matrix is real. -/
theorem wT_finite (a : FVec Ideal S128x128 .f32) (h : ∀ i, ∃ x : ℝ, a i = (x : EReal)) (i : S128x128.Idx) :
    ∃ x : ℝ, HostVal.wT (F := Ideal) a i = (x : EReal) :=
  h _

end Cert.KernelIdeal.Fin

end
-- ==== Proof.lean ====
/-
  The certificate: a graph layer (neighbour mean, two 128×128 linear maps and a bias, batch normalisation over the
  50000 nodes, a clamp at zero and a residual) computed by two tiled kernels against the same layer in plain array
  operations.

  Both programs compute the neighbour means by the same host operations. The kernels then take the column statistics
  block by block — 25 blocks of 2000 rows, the column sum and the column sum of squares accumulated in block order —
  and use the variance  E[f²] − (E f)² ; the reference sums all rows at once and uses  E[(f − E f)²] . Under the
  precondition every input entry is a real number, hence so is every pre-normalisation entry, and over the reals
  the two statistics coincide (sums regroup; the two variance formulas are one polynomial identity). Everything else
  — the matrix products as sums over the contracted coordinate, the scale, the shift, the inverse square root, the
  clamp, the residual — is the same arithmetic on both sides, entry by entry.

  The three frames: the two kernel programs' are the launch over their host stretches and regions; the reference's
  is its straight-line run with the result dropped. The idealisation rewrote nothing.
-/
import proofs.«143099_j87393994539131_1_alg».proof.Defs
import proofs.«143099_j87393994539131_1_alg».proof.Proof.Gen.Kernel
import proofs.«143099_j87393994539131_1_alg».proof.Proof.Gen.Kernel.Frame
import proofs.«143099_j87393994539131_1_alg».proof.Proof.Gen.KernelIdeal
import proofs.«143099_j87393994539131_1_alg».proof.Proof.Gen.KernelIdeal.Frame
import proofs.«143099_j87393994539131_1_alg».proof.Proof.Gen.ReferenceIdeal
import proofs.«143099_j87393994539131_1_alg».proof.Proof.Gen.Pre_finite_inputs
import proofs.«143099_j87393994539131_1_alg».proof.Proof.Spec
import proofs.«143099_j87393994539131_1_alg».proof.Proof.KRun
import proofs.«143099_j87393994539131_1_alg».proof.Proof.KVal
import proofs.«143099_j87393994539131_1_alg».proof.Proof.RefRun
import proofs.«143099_j87393994539131_1_alg».proof.Proof.RefRead
import proofs.«143099_j87393994539131_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs' neighbour means are one function of the node rows and the edge list: the same host operations. -/
theorem agg_same (a0 : FVec Ideal Cert.KernelIdeal.S50000x128 .f32) (a1 : IVec Cert.KernelIdeal.S2x800000 32) :
    Cert.ReferenceIdeal.RefVal.agg (F := Ideal) a0 a1 = Cert.KernelIdeal.HostVal.agg (F := Ideal) a0 a1 := rfl

/-- and so are their transposed weight matrices. -/
theorem wT_same (a : FVec Ideal Cert.KernelIdeal.S128x128 .f32) :
    Cert.ReferenceIdeal.RefVal.wT (F := Ideal) a = Cert.KernelIdeal.HostVal.wT (F := Ideal) a := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefVal.run (F := Ideal) m ρ)

/-- At the extended reals the kernels' result array ends at the blockwise normalisation and the reference's at the
    one-shot normalisation of the same pre-normalisation rows of arguments that agree; the rows are real under the
    precondition, so the two are equal entry by entry. -/
theorem algebraic : Cert.algebraic_KernelIdeal_ReferenceIdeal := by
  intro m ρ m' ρ' hpre hagree
  refine ⟨fun c => Cert.KernelIdeal.Gen.W4 m ρ c (Proc.devRef .tc Cert.KernelIdeal.main_v38),
    Cert.KernelIdeal.Val.run_result (F := Ideal) m ρ, ?_⟩
  refine (θ_run Cert.ReferenceIdeal.defs _ _).mono (fun _ h c => ⟨(h c).1.trans ?_, (h c).2⟩)
    (Cert.ReferenceIdeal.RefVal.run (F := Ideal) m' ρ')
  rw [(hagree c).1, (hagree c).2.1, (hagree c).2.2.1, (hagree c).2.2.2.1, (hagree c).2.2.2.2.1,
    (hagree c).2.2.2.2.2.1, (hagree c).2.2.2.2.2.2]
  obtain ⟨h0, h2, h3, h4⟩ := Cert.KernelIdeal.Fin.inputs_finite m hpre c
  funext i
  obtain ⟨r, j, rfl⟩ : ∃ (r : Fin 50000) (j : Fin 128), i = ix2 r j := ⟨i 0, i 1, eq_ix2 i⟩
  refine (Cert.ReferenceIdeal.RefVal.res_apply _ _ _ _ _ _ _ r j).trans ?_
  refine Eq.trans ?_ (Cert.KernelIdeal.Val.kernel_value m ρ c r j).symm
  rw [agg_same, wT_same, wT_same]
  refine (Cert.Sage.outK_eq_outR _ _ _ _ (fun r j => Cert.Sage.lin_finite _ _ _ _ _
    (fun r k => Cert.KernelIdeal.Fin.agg_finite _ _ h0 _) (fun r k => h0 _)
    (fun k j => Cert.KernelIdeal.Fin.wT_finite _ h2 _) (fun k j => Cert.KernelIdeal.Fin.wT_finite _ h4 _)
    (fun j => h3 _) r j) r j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
